-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x128 : Shape := ⟨3, ![4, 8192, 128]⟩
abbrev S128x128 : Shape := ⟨2, ![128, 128]⟩
abbrev S128 : Shape := ⟨1, ![128]⟩
abbrev S_ : Shape := ⟨0, ![]⟩

class Facts : Prop where
  bcast_S_S4x8192x128 : S_.BroadcastsInDim S4x8192x128 (![] : Fin 0 → Fin S4x8192x128.rank)
  reducesTo_S4x8192x128_S_d0_1_2 : S4x8192x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S4x8192x128 .f32) (main_arg1 : FVec F S128x128 .f32) (main_arg2 : FVec F S128 .f32) : IVec S_ 1 :=
  let main_v0 : FVec F S4x8192x128 .f32 := Host.absf main_arg0
  let main_cst : FVec F S_ .f32 := constant S_ .f32 0x7F800000#32
  let main_v1 : FVec F S4x8192x128 .f32 := broadcastInDim S4x8192x128 ![] bcast_S_S4x8192x128 main_cst
  let main_v2 : IVec S4x8192x128 1 := cmpf .olt main_v0 main_v1
  let main_c : IVec S_ 1 := constantI S_ 1 1#1
  let main_v3 : IVec S_ 1 := (fun x v => Host.reduce IntOp.andi x v reducesTo_S4x8192x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S4x8192x128 : Shape := ⟨3, ![4, 8192, 128]⟩
abbrev S128x128 : Shape := ⟨2, ![128, 128]⟩
abbrev S128 : Shape := ⟨1, ![128]⟩
abbrev S1x8192x128 : Shape := ⟨3, ![1, 8192, 128]⟩
abbrev S8192x128 : Shape := ⟨2, ![8192, 128]⟩
abbrev S1x128 : Shape := ⟨2, ![1, 128]⟩
abbrev S8192 : Shape := ⟨1, ![8192]⟩
abbrev S8192x1 : Shape := ⟨2, ![8192, 1]⟩
abbrev S1x1024x128 : Shape := ⟨3, ![1, 1024, 128]⟩
abbrev S1024x128 : Shape := ⟨2, ![1024, 128]⟩
abbrev S1024x1 : Shape := ⟨2, ![1024, 1]⟩
abbrev S1x512x128 : Shape := ⟨3, ![1, 512, 128]⟩
abbrev S512x128 : Shape := ⟨2, ![512, 128]⟩
abbrev S128x512 : Shape := ⟨2, ![128, 512]⟩
abbrev S1024x512 : Shape := ⟨2, ![1024, 512]⟩
abbrev S1024 : Shape := ⟨1, ![1024]⟩

abbrev nBuf : Space → Nat
  | .hbm => 5
  | .vmem => 14
  | .smem => 0
  | _ => 0

abbrev bufTy : (tb : Table) → Fin (tcTables nBuf tb) → BufTy
  | .hbm, ⟨0, _⟩ => ⟨S4x8192x128, .f32⟩
  | .hbm, ⟨1, _⟩ => ⟨S128x128, .f32⟩
  | .hbm, ⟨2, _⟩ => ⟨S128, .f32⟩
  | .hbm, ⟨3, _⟩ => ⟨S4x8192x128, .f32⟩
  | .hbm, ⟨4, _⟩ => ⟨S4x8192x128, .f32⟩
  | .local _ .vmem, ⟨0, _⟩ => ⟨S1x8192x128, .f32⟩
  | .local _ .vmem, ⟨1, _⟩ => ⟨S1x8192x128, .f32⟩
  | .local _ .vmem, ⟨2, _⟩ => ⟨S128x128, .f32⟩
  | .local _ .vmem, ⟨3, _⟩ => ⟨S128, .f32⟩
  | .local _ .vmem, ⟨4, _⟩ => ⟨S1x8192x128, .f32⟩
  | .local _ .vmem, ⟨5, _⟩ => ⟨S1x8192x128, .f32⟩
  | .local _ .vmem, ⟨6, _⟩ => ⟨S1x1024x128, .f32⟩
  | .local _ .vmem, ⟨7, _⟩ => ⟨S1x1024x128, .f32⟩
  | .local _ .vmem, ⟨8, _⟩ => ⟨S1x8192x128, .f32⟩
  | .local _ .vmem, ⟨9, _⟩ => ⟨S1x8192x128, .f32⟩
  | .local _ .vmem, ⟨10, _⟩ => ⟨S1x8192x128, .f32⟩
  | .local _ .vmem, ⟨11, _⟩ => ⟨S1x8192x128, .f32⟩
  | .local _ .vmem, ⟨12, _⟩ => ⟨S1x1024x128, .f32⟩
  | .local _ .vmem, ⟨13, _⟩ => ⟨S1x1024x128, .f32⟩
  | _, _ => ⟨S4x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 8], ![false, false]⟩

@[reducible] def k1_t1_loop : Scf.Loop 32 :=
  let c0_i32 : BitVec 32 := 0#32
  let c16_i32 : BitVec 32 := 16#32
  let v5 : BitVec 32 := Scalar.addi c0_i32 c16_i32
  let c1_i32 : BitVec 32 := 1#32
  ⟨c0_i32, v5, c1_i32⟩
def k1_mult1 (k1_t1 : Fin k1_t1_loop.trips) : BitVec 32 :=
  let c0_i32 : BitVec 32 := 0#32
  let c1_i32 : BitVec 32 := 1#32
  let arg6 : BitVec 32 := Scf.iv c0_i32 c1_i32 k1_t1
  let c512_i32 : BitVec 32 := 512#32
  let v14 : BitVec 32 := Scalar.muli arg6 c512_i32
  v14
def k1_off1 (k1_t1 : Fin k1_t1_loop.trips) : Fin 3 → Nat :=
  let c0_8 : Index := 0#32
  let c0_i32 : BitVec 32 := 0#32
  let c1_i32 : BitVec 32 := 1#32
  let arg6 : BitVec 32 := Scf.iv c0_i32 c1_i32 k1_t1
  let c512_i32 : BitVec 32 := 512#32
  let v14 : BitVec 32 := Scalar.muli arg6 c512_i32
  let v15 : BitVec 32 := v14
  let v16 : Index := Scalar.indexCast v15
  let c0_9 : Index := 0#32
  ![0, v16.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  bitsLt_bf16_f32 : FTy.bits .bf16 < FTy.bits .f32
  transposes_S128x128_p1_0_S128x128 : S128x128.Transposes [1, 0] S128x128
  shapeCasts_S128_S1x128 : S128.ShapeCasts S1x128
  broadcasts_S1x128_S8192x128 : S1x128.Broadcasts S8192x128
  reduces_S8192x128_S8192 : S8192x128.Reduces [1] S8192
  shapeCasts_S8192_S8192x1 : S8192.ShapeCasts S8192x1
  broadcasts_S8192x1_S8192x128 : S8192x1.Broadcasts S8192x128
  shapeCasts_S8192x128_S1x8192x128 : S8192x128.ShapeCasts S1x8192x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  h_S1x512x128 : 0 < S1x512x128.numel
  shapeCasts_S1x512x128_S512x128 : S1x512x128.ShapeCasts S512x128
  transposes_S512x128_p1_0_S128x512 : S512x128.Transposes [1, 0] S128x512
  natLt_1_32 : 1 < 32
  reduces_S1024x512_S1024 : S1024x512.Reduces [1] S1024
  shapeCasts_S1024_S1024x1 : S1024.ShapeCasts S1024x1
  broadcasts_S1024x1_S1024x128 : S1024x1.Broadcasts S1024x128
  shapeCasts_S1024x128_S1x1024x128 : S1024x128.ShapeCasts S1x1024x128
  dot_S8192x128_S128x128_S8192x128_1_0_0_1_n_n_wf : DotDims.WF S8192x128 S128x128 S8192x128 [1] [0] [0] [1] [] []
  dot_S1024x128_S128x512_S1024x512_1_0_0_1_n_n_wf : DotDims.WF S1024x128 S128x512 S1024x512 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S4x8192x128.size a
  hwx0_0 : ∀ i : grid0.Coords, EltTy.bits .f32 = 32 ∨ (Rect.block (s := S4x8192x128) S1x8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8192x128.size a ≤ S4x8192x128.size a
  hwx0_3 : ∀ i : grid0.Coords, EltTy.bits .f32 = 32 ∨ (Rect.block (s := S4x8192x128) S1x8192x128.size (cc0_transform_3 i) (hinb0_3 i)).WholeWords (EltTy.packing .f32)
  hrank1 : 0 < grid1.rank
  k1_t1_ok : k1_t1_loop.OK
  k1_mult1_dvd : ∀ k1_t1 : Fin k1_t1_loop.trips, 512 ∣ (k1_mult1 k1_t1).toNat
  k1_off1_inb : ∀ k1_t1 : Fin k1_t1_loop.trips, ∀ a, (k1_off1 k1_t1) a + S1x512x128.size a ≤ S1x8192x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S4x8192x128.size a
  hwx1_0 : ∀ i : grid1.Coords, EltTy.bits .f32 = 32 ∨ (Rect.block (s := S4x8192x128) S1x1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8192x128.size a ≤ S4x8192x128.size a
  hwx1_1 : ∀ i : grid1.Coords, EltTy.bits .f32 = 32 ∨ (Rect.block (s := S4x8192x128) S1x8192x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8192x128.size a ≤ S4x8192x128.size a
  hwx1_2 : ∀ i : grid1.Coords, EltTy.bits .f32 = 32 ∨ (Rect.block (s := S4x8192x128) S1x8192x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S4x8192x128.size a
  hwx1_3 : ∀ i : grid1.Coords, EltTy.bits .f32 = 32 ∨ (Rect.block (s := S4x8192x128) S1x1024x128.size (cc1_transform_3 i) (hinb1_3 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_arg0) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x8192x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1x8192x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x8192x128 : Shape := ⟨3, ![4, 8192, 128]⟩
abbrev S128x128 : Shape := ⟨2, ![128, 128]⟩
abbrev S128 : Shape := ⟨1, ![128]⟩
abbrev S1x1x128 : Shape := ⟨3, ![1, 1, 128]⟩
abbrev S_ : Shape := ⟨0, ![]⟩
abbrev S4x8192 : Shape := ⟨2, ![4, 8192]⟩
abbrev S4x8192x1 : Shape := ⟨3, ![4, 8192, 1]⟩
abbrev S4x8192x8192 : Shape := ⟨3, ![4, 8192, 8192]⟩

abbrev nBuf : Space → Nat
  | .hbm => 33
  | .vmem => 0
  | .smem => 0
  | _ => 0

abbrev bufTy : (tb : Table) → Fin (tcTables nBuf tb) → BufTy
  | .hbm, ⟨0, _⟩ => ⟨S4x8192x128, .f32⟩
  | .hbm, ⟨1, _⟩ => ⟨S128x128, .f32⟩
  | .hbm, ⟨2, _⟩ => ⟨S128, .f32⟩
  | .hbm, ⟨3, _⟩ => ⟨S4x8192x128, .f32⟩
  | .hbm, ⟨4, _⟩ => ⟨S1x1x128, .f32⟩
  | .hbm, ⟨5, _⟩ => ⟨S4x8192x128, .f32⟩
  | .hbm, ⟨6, _⟩ => ⟨S4x8192x128, .f32⟩
  | .hbm, ⟨7, _⟩ => ⟨S4x8192x128, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x128, .f32⟩
  | .hbm, ⟨17, _⟩ => ⟨S4x8192x128, .f32⟩
  | .hbm, ⟨18, _⟩ => ⟨S4x8192x8192, .f32⟩
  | .hbm, ⟨19, _⟩ => ⟨S_, .f32⟩
  | .hbm, ⟨20, _⟩ => ⟨S4x8192x8192, .f32⟩
  | .hbm, ⟨21, _⟩ => ⟨S4x8192x8192, .i1⟩
  | .hbm, ⟨22, _⟩ => ⟨S4x8192x8192, .f32⟩
  | .hbm, ⟨23, _⟩ => ⟨S_, .f32⟩
  | .hbm, ⟨24, _⟩ => ⟨S4x8192, .f32⟩
  | .hbm, ⟨25, _⟩ => ⟨S4x8192x1, .f32⟩
  | .hbm, ⟨26, _⟩ => ⟨S_, .f32⟩
  | .hbm, ⟨27, _⟩ => ⟨S_, .f32⟩
  | .hbm, ⟨28, _⟩ => ⟨S4x8192x1, .f32⟩
  | .hbm, ⟨29, _⟩ => ⟨S4x8192x1, .f32⟩
  | .hbm, ⟨30, _⟩ => ⟨S4x8192x8192, .f32⟩
  | .hbm, ⟨31, _⟩ => ⟨S4x8192x8192, .f32⟩
  | .hbm, ⟨32, _⟩ => ⟨S4x8192x128, .f32⟩
  | _, _ => ⟨S4x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v4 : Ref sig .tc := ⟨.hbm, 11, rfl⟩
abbrev main_cst : Ref sig .tc := ⟨.hbm, 12, rfl⟩
abbrev main_call1_v0 : Ref sig .tc := ⟨.hbm, 13, rfl⟩
abbrev main_call1_v1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call2_v0 : Ref sig .tc := ⟨.hbm, 27, rfl⟩
abbrev main_call2_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S4x8192x128_0_1_2 : S1x1x128.BroadcastsInDim S4x8192x128 (![0, 1, 2] : Fin 3 → Fin S4x8192x128.rank)
  reducesTo_S4x8192x128_S4x8192_d2 : S4x8192x128.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x128_0_1_2 : S4x8192x1.BroadcastsInDim S4x8192x128 (![0, 1, 2] : Fin 3 → Fin S4x8192x128.rank)
  bcast_S_S4x8192x8192 : S_.BroadcastsInDim S4x8192x8192 (![] : Fin 0 → Fin S4x8192x8192.rank)
  reducesTo_S4x8192x8192_S4x8192_d2 : S4x8192x8192.ReducesTo [2] S4x8192
  bcast_S4x8192x1_S4x8192x8192_0_1_2 : S4x8192x1.BroadcastsInDim S4x8192x8192 (![0, 1, 2] : Fin 3 → Fin S4x8192x8192.rank)
  dot_S4x8192x128_S128x128_S4x8192x128_2_1_01_0_n_n_wf : DotDims.WF S4x8192x128 S128x128 S4x8192x128 [2] [1] [0, 1] [0] [] []
  dot_S4x8192x128_S4x8192x128_S4x8192x8192_2_2_1_1_0_0_wf : DotDims.WF S4x8192x128 S4x8192x128 S4x8192x8192 [2] [2] [1] [1] [0] [0]
  dot_S4x8192x8192_S4x8192x128_S4x8192x128_2_1_1_2_0_0_wf : DotDims.WF S4x8192x8192 S4x8192x128 S4x8192x128 [2] [1] [1] [2] [0] [0]

variable [Facts₀]

def dot_S4x8192x128_S128x128_S4x8192x128_2_1_01_0_n_n : DotDims S4x8192x128 S128x128 S4x8192x128 where
  lhsContracting := [2]
  rhsContracting := [1]
  lhsNonContracting := [0, 1]
  rhsNonContracting := [0]
  lhsBatch := []
  rhsBatch := []
  wf := dot_S4x8192x128_S128x128_S4x8192x128_2_1_01_0_n_n_wf
def dot_S4x8192x128_S4x8192x128_S4x8192x8192_2_2_1_1_0_0 : DotDims S4x8192x128 S4x8192x128 S4x8192x8192 where
  lhsContracting := [2]
  rhsContracting := [2]
  lhsNonContracting := [1]
  rhsNonContracting := [1]
  lhsBatch := [0]
  rhsBatch := [0]
  wf := dot_S4x8192x128_S4x8192x128_S4x8192x8192_2_2_1_1_0_0_wf
def dot_S4x8192x8192_S4x8192x128_S4x8192x128_2_1_1_2_0_0 : DotDims S4x8192x8192 S4x8192x128 S4x8192x128 where
  lhsContracting := [2]
  rhsContracting := [1]
  lhsNonContracting := [1]
  rhsNonContracting := [2]
  lhsBatch := [0]
  rhsBatch := [0]
  wf := dot_S4x8192x8192_S4x8192x128_S4x8192x128_2_1_1_2_0_0_wf

class Facts : Prop extends Facts₀ where

variable [Facts]
-- ==== Proof.Proj.lean ====
/-
  The first kernel region of the program as printed: for each of the four batches, the rows of `x · Wᵀ + b`, each
  divided by the larger of its Euclidean norm and a small positive constant.

  The region has four grid points, one per batch. At a point the body finds the batch's block of `x`, the whole
  of `W` and the whole of `b` in its three input buffers, and writes one block of the result whole, as one
  function of the three: the body's only store covers its output buffer. The input buffers are left as found.
  Stated at any contents `V` of the core's arrays at the region's entry, and at any float instance.
-/
import proofs.«117135_j34677565948786_1_alg».proof.Proof.Gen.Kernel.Launch
import proofs.«117135_j34677565948786_1_alg».proof.Proof.Gen.Kernel.Skeleton
import proofs.«117135_j34677565948786_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not the point fetched it: a window
    not fetched at a point has the block index of the point before. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in its output buffer -/

/-- The whole buffer of a batch block of `x`, of `W`, of `b`: the rectangles the body loads and stores through. -/
abbrev rX : Rect S1x8192x128 := Rect.unit (s := S1x8192x128) ![0, 0, 0] S1x8192x128.size inb_S1x8192x128_S1x8192x128_0_0_0
abbrev rW : Rect S128x128 := Rect.unit (s := S128x128) ![0, 0] S128x128.size inb_S128x128_S128x128_0_0
abbrev rB : Rect S128 := Rect.unit (s := S128) ![0] S128.size inb_S128_S128_0

/-- The output buffer after the body: its one store, the normalised rows as a function of the three loaded values. -/
def out0_3 (x0 : Vec F S1x8192x128 .f32) (x1 : Vec F S128x128 .f32) (x2 : Vec F S128 .f32) : Vec F S1x8192x128 .f32 :=
  View.canon [⟨rX, k0_pay1 (View.ld x0 rX) (View.ld x1 rW) (View.ld x2 rB)⟩]

/-- The one store covers the buffer. -/
theorem cover0_3 (p0 : Vec F S1x8192x128 .f32) (y : S1x8192x128.Idx) :
    ∃ pc ∈ ([⟨rX, p0⟩] : List (View.Piece (Elt F) S1x8192x128 .f32)), y ∈ pc.1.set :=
  View.cover_of_tiled [⟨rX, p0⟩] S1x8192x128.size (by rfl) y

/-! ## The body's triple -/

set_option maxHeartbeats 1000000 in
/-- The body on whole buffers, the three inputs at contents `x0`, `x1`, `x2` and the output at anything, runs to
    the end leaving the inputs as they were and the output at `out0_3` of them. -/
theorem sound_kernel0 (c : Dev nD) (E : Set ℕ) (i : grid0.Coords)
    (arg1 : Memref sig .tc .vmem S1x8192x128 .f32) (harg1 : arg1.IsWhole) (arg2 : Memref sig .tc .vmem S128x128 .f32) (harg2 : arg2.IsWhole)
    (arg3 : Memref sig .tc .vmem S128 .f32) (harg3 : arg3.IsWhole) (arg4 : Memref sig .tc .vmem S1x8192x128 .f32) (harg4 : arg4.IsWhole)
    (x0 : Vec F S1x8192x128 .f32) (x1 : Vec F S128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The proof data of the region on core `c`: the arrays as the region finds them; after the body at point `t` each
    input buffer at its block and the output buffer at `out0_3` of the three input blocks; the invariant the scoped
    buffers no window stages and the generator register, untouched; nothing owed; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Agg.lean ====
/-
  The second kernel region of the program as printed: for each batch and each tile of 1024 query rows, the 0/1 matrix
  of which inner products of a query row with a key row exceed the threshold, its row sums, and its product with the
  batch's rows of `x`, both accumulated over sixteen tiles of 512 key rows; then the accumulated product divided by
  the larger of the accumulated row sum and one.

  The region has thirty-two grid points (four batches by eight query tiles). At a point the body finds the query
  tile of the normalised rows, the whole batch of normalised rows and the whole batch of `x` in its three input
  buffers, runs the sixteen trips carrying the pair (row sums, product), and writes its output block whole with one
  store. The carried pair after the trips is the recursion over the trips of what one trip yields from the pair before
  it. The two windows that read the normalised rows read ONE array: the region holds that array as two half shares,
  one per window. Stated at any contents `V` of the core's arrays at the region's entry, and at any float instance.
-/
import proofs.«117135_j34677565948786_1_alg».proof.Proof.Gen.Kernel.Launch
import proofs.«117135_j34677565948786_1_alg».proof.Proof.Gen.Kernel.Skeleton
import proofs.«117135_j34677565948786_1_alg».proof.Proof.Gen.Kernel.Loops
import proofs.«117135_j34677565948786_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether or not the point fetched it: a window
    not fetched at a point has the block index of the point before. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in its output buffer -/

/-- The whole buffer of a query tile: the rectangle the body loads the queries and stores its result through. -/
abbrev rQ : Rect S1x1024x128 := Rect.unit (s := S1x1024x128) ![0, 0, 0] S1x1024x128.size inb_S1x1024x128_S1x1024x128_0_0_0

/-- The pair (row sums, product) the sixteen trips leave, from the contents `x0`, `x1`, `x2` of the three input
    buffers: the recursion over the trips, from the pair of zero constants, of what a trip yields from the pair
    before it. -/
def carried1 (c : Dev nD) (i : grid1.Coords)
    (arg2 : Memref sig .tc .vmem S1x1024x128 .f32) (harg2 : arg2.IsWhole) (arg3 : Memref sig .tc .vmem S1x8192x128 .f32) (harg3 : arg3.IsWhole)
    (arg4 : Memref sig .tc .vmem S1x8192x128 .f32) (harg4 : arg4.IsWhole) (arg5 : Memref sig .tc .vmem S1x1024x128 .f32) (harg5 : arg5.IsWhole)
    (x0 : Vec F S1x1024x128 .f32) (x1 : Vec F S1x8192x128 .f32) (x2 : Vec F S1x8192x128 .f32) :
    FVec F S1024x1 .f32 × FVec F S1024x128 .f32 :=
  st_k1_t1 (F := F) Variants.none c none i arg2 harg2 arg3 harg3 arg4 harg4 arg5 harg5
    (View.readAt (Elt F) arg2.view rQ.toLoadRect (harg2.unread x0)) (harg3.unread x1) (harg4.unread x2)
    (k1_pay1 (F := F), k1_pay2 (F := F)) (Scf.trips k1_t1_loop.lb k1_t1_loop.ub k1_t1_loop.st)

/-- The output buffer after the body: its one store, the accumulated product divided by the larger of the
    accumulated row sum and one. -/
def out1_3 (c : Dev nD) (i : grid1.Coords)
    (arg2 : Memref sig .tc .vmem S1x1024x128 .f32) (harg2 : arg2.IsWhole) (arg3 : Memref sig .tc .vmem S1x8192x128 .f32) (harg3 : arg3.IsWhole)
    (arg4 : Memref sig .tc .vmem S1x8192x128 .f32) (harg4 : arg4.IsWhole) (arg5 : Memref sig .tc .vmem S1x1024x128 .f32) (harg5 : arg5.IsWhole)
    (x0 : Vec F S1x1024x128 .f32) (x1 : Vec F S1x8192x128 .f32) (x2 : Vec F S1x8192x128 .f32) : Vec F S1x1024x128 .f32 :=
  View.canon [⟨rQ, k1_pay6 (carried1 c i arg2 harg2 arg3 harg3 arg4 harg4 arg5 harg5 x0 x1 x2).1
    (carried1 c i arg2 harg2 arg3 harg3 arg4 harg4 arg5 harg5 x0 x1 x2).2⟩]

/-- The one store covers the buffer. -/
theorem cover1_3 (p0 : Vec F S1x1024x128 .f32) (y : S1x1024x128.Idx) :
    ∃ pc ∈ ([⟨rQ, p0⟩] : List (View.Piece (Elt F) S1x1024x128 .f32)), y ∈ pc.1.set :=
  View.cover_of_tiled [⟨rQ, p0⟩] S1x1024x128.size (by rfl) y

/-! ## The body's triple -/

set_option maxHeartbeats 1000000 in
/-- The body on whole buffers, the three inputs at contents `x0`, `x1`, `x2` and the output at anything, runs to
    the end — through the sixteen trips by the loop's invariant — leaving the inputs as they were and the output at
    `out1_3` of them. -/
theorem sound_kernel1 (c : Dev nD) (E : Set ℕ) (i : grid1.Coords)
    (arg2 : Memref sig .tc .vmem S1x1024x128 .f32) (harg2 : arg2.IsWhole) (arg3 : Memref sig .tc .vmem S1x8192x128 .f32) (harg3 : arg3.IsWhole)
    (arg4 : Memref sig .tc .vmem S1x8192x128 .f32) (harg4 : arg4.IsWhole) (arg5 : Memref sig .tc .vmem S1x1024x128 .f32) (harg5 : arg5.IsWhole)
    (x0 : Vec F S1x1024x128 .f32) (x1 : Vec F S1x8192x128 .f32) (x2 : Vec F S1x8192x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 c i arg2 harg2 arg3 harg3 arg4 harg4 arg5 harg5 x0 x1 x2)) -∗ K ⟨⟩))
      ⊢ wp frame (wpE (defs₀ (F := F)) Variants.none c none) E (cc1__agg_kernel i arg2 harg2 arg3 harg3 arg4 harg4 arg5 harg5) K := by
  simp only [cc1__agg_kernel_eq_skeleton]; unfold cc1__agg_kernel_skel
  unfold owns
  iintro ⟨⟨%f0, %hf0, H0⟩, ⟨%f1, %hf1, H1⟩, ⟨%f2, %hf2, H2⟩, ⟨%d3, %f3, -, H3⟩, Hk⟩
  obtain rfl := harg2.eq_unread hf0
  obtain rfl := harg3.eq_unread hf1
  obtain rfl := harg4.eq_unread hf2
  sl_exec
  sl_step
  iapply Hk
  isplitl [H0]
  · iexists _; isplitr; · ipureintro; exact harg2.read_unread x0
    iexact H0
  isplitl [H1]
  · iexists _; isplitr; · ipureintro; exact harg3.read_unread x1
    iexact H1
  isplitl [H2]
  · iexists _; isplitr; · ipureintro; exact harg4.read_unread x2
    iexact H2
  iexists _; isplitr
  swap; · iexact H3
  ipureintro
  exact View.read_writes_eq_canon _ _ _ (cover1_3 _)

/-! ## The region's proof data -/

/-- The output block at point `t`, from the three input blocks there. -/
def oblk1 (c : Dev nD) (t : Fin cfg1.N) : Vec F S1x1024x128 .f32 :=
  out1_3 c (grid1.coords t) (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (iblk1 V c 0 t) (iblk1 V c 1 t) (iblk1 V c 2 t)

/-- The proof data of the region on core `c`: the arrays as the region finds them; after the body at point `t` each
    input buffer at its block and the output buffer at `oblk1`; the invariant the scoped buffers no window stages
    and the generator register, untouched; nothing owed; the array of normalised rows held as its two half shares,
    one per window that reads it, the other arrays whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => oblk1 V c t
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = oblk1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold oblk1
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Run.lean ====
/-
  The program as printed from launch to return. Its @main is the two kernel regions in a row and nothing else, so
  the core's arrays pass through three valuations: as launched; after the first region, with the array of
  normalised rows at what that region's four points wrote back; after the second, with the result array at what
  its thirty-two points wrote back. No region writes an argument array: the first reads the three of them through
  input windows, the second reads `x` through an input window and leaves `W` and the bias aside.

  The second region reads the array of normalised rows through TWO windows. Entering it, that array's buffer, held
  whole, is split into its two half shares, one per window; leaving it, both windows still hold the contents
  they were handed (an input window's array is never written), and the halves are joined back.

  Every weakly fair execution terminates, without a fault, in a state whose result array is the second region's
  and whose argument arrays are as launched; at any float instance.
-/
import proofs.«117135_j34677565948786_1_alg».proof.Proof.Proj
import proofs.«117135_j34677565948786_1_alg».proof.Proof.Agg

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The unscoped buffers, one by one -/

/-- The core's five unscoped buffers — the three arguments, the normalised rows, the result — each whole. -/
theorem unscopedBufs_list (c : Dev nD) (X : (b : Ref sig .tc) → Buf (Elt F) ((c : Thread nD τ).loc b)) :
    (unscopedBufs (Ix := Unit) (Name := ℕ) (U := UR sig nD τ) (Lvl := ℕ) c X : sProp 𝕄)
      = iprop((((c : Thread nD τ).loc main_arg0) ↦{fullShare} X main_arg0) ∗ (((c : Thread nD τ).loc main_arg1) ↦{fullShare} X main_arg1)
          ∗ (((c : Thread nD τ).loc main_arg2) ↦{fullShare} X main_arg2) ∗ (((c : Thread nD τ).loc main_v0) ↦{fullShare} X main_v0)
          ∗ (((c : Thread nD τ).loc main_v1) ↦{fullShare} X main_v1)) := by
  unfold unscopedBufs
  exact bigSep_eq_bigSepL_of_eq [main_arg0, main_arg1, main_arg2, main_v0, main_v1] (by decide) (by decide) _

section Shares

variable (V : (c : Dev nD) → (b : Ref sig .tc) → Buf (Elt F) ((c : Thread nD τ).loc b))

/-- The second region's windowed arrays at contents `G w`: the normalised rows twice, once at each half share, `x`
    and the result whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v0) ↦{fullShare.left} G 0) ∗ (((c : Thread nD τ).loc main_v0) ↦{fullShare.right} G 1)
          ∗ (((c : Thread nD τ).loc main_arg0) ↦{fullShare} G 2) ∗ (((c : Thread nD τ).loc main_v1) ↦{fullShare} G 3)) := by
  unfold Dat.arrays
  rw [bigSep_W1, (arr_whole1 0).set_eq_univ, (arr_whole1 2).set_eq_univ, (arr_whole1 3).set_eq_univ]
  rfl

/-- ENTRY. The unscoped buffers at the entry contents give the region's arrays at those contents — the normalised
    rows' buffer split into its halves — and the two buffers no window reads. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [unscopedBufs_list, arrays1_eq, unscopedRest1_eq]
  iintro ⟨H0, H1, H2, Hv0, Hv1⟩
  ihave Hs := (pointsTo_share (PosShare.mem_left_op_right fullShare)).1 $$ Hv0
  icases Hs with ⟨HL, HR⟩
  isplitl [HL HR H0 Hv1]
  · isplitl [HL]; · iexact HL
    isplitl [HR]; · iexact HR
    isplitl [H0]; · iexact H0
    iexact Hv1
  · isplitl [H1]; · iexact H1
    iexact H2

/-- EXIT. The region's arrays after its last point and the two buffers it left aside give the unscoped buffers at
    any contents `X'` that agree with the entry contents but at the result array, where they are what the write-backs
    left: the two input windows on the normalised rows still hold what they were handed, so the halves join. -/
theorem exit1 (c : Dev nD) (X' : (b : Ref sig .tc) → Buf (Elt F) ((c : Thread nD τ).loc b))
    (h0 : X' main_arg0 = V c main_arg0) (h1 : X' main_arg1 = V c main_arg1) (h2 : X' main_arg2 = V c main_arg2)
    (hv0 : X' main_v0 = V c main_v0) (hv1 : X' main_v1 = (dat1 V c).arrAt 3 cfg1.N) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c X' : sProp 𝕄) := by
  rw [unscopedBufs_list, arrays1_eq, unscopedRest1_eq, h0, h1, h2, hv0, hv1,
    (dat1 V c).arrAt_in 0 rfl _, (dat1 V c).arrAt_in 1 rfl _, (dat1 V c).arrAt_in 2 rfl _]
  iintro ⟨⟨HL, HR, H0, Hv1⟩, H1, H2⟩
  ihave Hv0 := (pointsTo_share (PosShare.mem_left_op_right fullShare)).2 $$ [HL HR]
  · isplitl [HL]; · iexact HL
    iexact HR
  isplitl [H0]; · iexact H0
  isplitl [H1]; · iexact H1
  isplitl [H2]; · iexact H2
  isplitl [Hv0]; · iexact Hv0
  iexact Hv1

end Shares

/-! ## The arrays' contents between the regions -/

variable (m : (ℓ : Loc nD τ sig) → Buf (Elt F) ℓ) (ρ : Dev nD → PrngReg)

/-- Core `c`'s buffers at launch. -/
abbrev W0 : Dev nD → Valuation τ sig (Elt F) := fun c b => m ((c : Dev nD), b)
/-- The same read at the TensorCore's references: what the first region's proof data take. -/
abbrev V0 : (c : Dev nD) → (b : Ref sig .tc) → Buf (Elt F) ((c : Thread nD τ).loc b) := fun c b => W0 m c b
/-- After the first region: its arrays at what its points leave (the inputs as entered, the normalised rows at the
    write-backs folded), every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what the second region's proof data take. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- The array of normalised rows the second region reads is what the first region's points left. -/
theorem V1_main_v0 (c : Dev nD) : V1 m c main_v0 = (dat0 (V0 m) c).arrAt 3 cfg0.N := W1_arr m c 3
/-- The arguments reach the second region as launched: the first region reads them through input windows. -/
theorem V1_main_arg0 (c : Dev nD) : V1 m c main_arg0 = m ((c : Thread nD τ).loc main_arg0) :=
  (W1_arr m c 0).trans (((dat0 (V0 m) c).arrAt_in 0 rfl _).trans (A_eq0 (V0 m) c 0))
theorem V1_main_arg1 (c : Dev nD) : V1 m c main_arg1 = m ((c : Thread nD τ).loc main_arg1) :=
  (W1_arr m c 1).trans (((dat0 (V0 m) c).arrAt_in 1 rfl _).trans (A_eq0 (V0 m) c 1))
theorem V1_main_arg2 (c : Dev nD) : V1 m c main_arg2 = m ((c : Thread nD τ).loc main_arg2) :=
  (W1_arr m c 2).trans (((dat0 (V0 m) c).arrAt_in 2 rfl _).trans (A_eq0 (V0 m) c 2))

/-- After the second region: the result array at what its points leave, every other buffer as it entered. -/
def W2 (c : Dev nD) : Valuation τ sig (Elt F) :=
  Function.update (W1 m c) (Proc.devRef .tc main_v1) ((dat1 (V1 m) c).arrAt 3 cfg1.N)
theorem W2_main_v1 (c : Dev nD) : W2 m c (Proc.devRef .tc main_v1) = (dat1 (V1 m) c).arrAt 3 cfg1.N := by
  unfold W2; exact Function.update_self ..
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) ..

/-! ## The proof data family and the thread state -/

/-- No pipeline has a prefetched table. -/
abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both regions: the core's generator register at some state and the core
    owing nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator
    register at some state. -/
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- The first region over the thread state: entered from every unscoped buffer as launched, left with the
    normalised rows written. Its arrays are split out of the unscoped buffers and put back at the exit contents; the
    generator register goes into the region's invariant and comes out; nothing is owed; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from what the first left, left with the result array written.
    The buffer of normalised rows is split into its halves at entry and joined at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit : (unscopedBufs (Ix := Unit) (Name := ℕ) (U := UR sig nD τ) (Lvl := ℕ) c (fun b => W1 m c b) : sProp 𝕄)
        ⊢ iprop((pdats m 1 c).arrays ((pdats m 1 c).arrAt · 0)
          ∗ Pipeline.unscopedRest (Ix := Unit) (Name := ℕ) (U := UR sig nD τ) (Lvl := ℕ) spec1 c (V1 m c)) := entry1 (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (V1 m c))
        ⊢ (unscopedBufs (Ix := Unit) (Name := ℕ) (U := UR sig nD τ) (Lvl := ℕ) c (fun b => W2 m c b) : sProp 𝕄) :=
      exit1 (V1 m) c (fun b => W2 m c b)
        (W2_of_ne m c main_arg0 (by decide)) (W2_of_ne m c main_arg1 (by decide)) (W2_of_ne m c main_arg2 (by decide))
        (W2_of_ne m c main_v0 (by decide)) (W2_main_v1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the two regions, and the launch -/

abbrev segs : List (Pipeline.Seg (pcfgs (F := F)) adm (pdats m) () defs₀ 𝒱₀ L lv) :=
  [ .region (reg0 m), .region (reg1 m) ]
/-- @main is the run of the two regions. -/
theorem main_run (c : Dev nD) : main (F := F) c = Pipeline.Seg.run (segs m) := (main_chain c).trans (by chain_rfl)

set_option backward.isDefEq.respectTransparency.types false in
/-- THE RUN. From any memory with zero counters, every weakly fair execution of @main on the TensorCores terminates,
    nothing faulting, in a state whose result array holds what the second region's points wrote back over the
    array of rows the first region's points wrote back, and whose argument arrays are as launched. -/
theorem run_values : θ_run defs (onTc (τ := τ) (main (F := F))) ⟨m, fun _ => 0, ρ⟩ (fun r => ∀ c : Dev nD,
      r.2.mem ((c.tc : Thread nD τ).loc main_v1) = (dat1 (V1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_main_v1 m c),
       (h c _ (mem_uc main_arg0 (by decide))).trans ((W2_of_ne m c main_arg0 (by decide)).trans (V1_main_arg0 m c)),
       (h c _ (mem_uc main_arg1 (by decide))).trans ((W2_of_ne m c main_arg1 (by decide)).trans (V1_main_arg1 m c)),
       (h c _ (mem_uc main_arg2 (by decide))).trans ((W2_of_ne m c main_arg2 (by decide)).trans (V1_main_arg2 m c))⟩)

/-- THE FRAME: the run, keeping only that the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_values m ρ)

end Cert.Kernel.Hand

end
-- ==== Proof.ProjIdeal.lean ====
/-
  The first kernel region of the idealized program: for each of the four batches, the rows of `x · Wᵀ + b`, each
  divided by the larger of its Euclidean norm and a small positive constant.

  The region has four grid points, one per batch. At a point the body finds the batch's block of `x`, the whole
  of `W` and the whole of `b` in its three input buffers, and writes one block of the result whole, as one
  function of the three: the body's only store covers its output buffer. The input buffers are left as found.
  Stated at any contents `V` of the core's arrays at the region's entry, and at any float instance.
-/
import proofs.«117135_j34677565948786_1_alg».proof.Proof.Gen.KernelIdeal.Launch
import proofs.«117135_j34677565948786_1_alg».proof.Proof.Gen.KernelIdeal.Skeleton
import proofs.«117135_j34677565948786_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not the point fetched it: a window
    not fetched at a point has the block index of the point before. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in its output buffer -/

/-- The whole buffer of a batch block of `x`, of `W`, of `b`: the rectangles the body loads and stores through. -/
abbrev rX : Rect S1x8192x128 := Rect.unit (s := S1x8192x128) ![0, 0, 0] S1x8192x128.size inb_S1x8192x128_S1x8192x128_0_0_0
abbrev rW : Rect S128x128 := Rect.unit (s := S128x128) ![0, 0] S128x128.size inb_S128x128_S128x128_0_0
abbrev rB : Rect S128 := Rect.unit (s := S128) ![0] S128.size inb_S128_S128_0

/-- The output buffer after the body: its one store, the normalised rows as a function of the three loaded values. -/
def out0_3 (x0 : Vec F S1x8192x128 .f32) (x1 : Vec F S128x128 .f32) (x2 : Vec F S128 .f32) : Vec F S1x8192x128 .f32 :=
  View.canon [⟨rX, k0_pay1 (View.ld x0 rX) (View.ld x1 rW) (View.ld x2 rB)⟩]

/-- The one store covers the buffer. -/
theorem cover0_3 (p0 : Vec F S1x8192x128 .f32) (y : S1x8192x128.Idx) :
    ∃ pc ∈ ([⟨rX, p0⟩] : List (View.Piece (Elt F) S1x8192x128 .f32)), y ∈ pc.1.set :=
  View.cover_of_tiled [⟨rX, p0⟩] S1x8192x128.size (by rfl) y

/-! ## The body's triple -/

set_option maxHeartbeats 1000000 in
/-- The body on whole buffers, the three inputs at contents `x0`, `x1`, `x2` and the output at anything, runs to
    the end leaving the inputs as they were and the output at `out0_3` of them. -/
theorem sound_kernel0 (c : Dev nD) (E : Set ℕ) (i : grid0.Coords)
    (arg1 : Memref sig .tc .vmem S1x8192x128 .f32) (harg1 : arg1.IsWhole) (arg2 : Memref sig .tc .vmem S128x128 .f32) (harg2 : arg2.IsWhole)
    (arg3 : Memref sig .tc .vmem S128 .f32) (harg3 : arg3.IsWhole) (arg4 : Memref sig .tc .vmem S1x8192x128 .f32) (harg4 : arg4.IsWhole)
    (x0 : Vec F S1x8192x128 .f32) (x1 : Vec F S128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The proof data of the region on core `c`: the arrays as the region finds them; after the body at point `t` each
    input buffer at its block and the output buffer at `out0_3` of the three input blocks; the invariant the scoped
    buffers no window stages and the generator register, untouched; nothing owed; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.AggIdeal.lean ====
/-
  The second kernel region of the idealized program: for each batch and each tile of 1024 query rows, the 0/1 matrix
  of which inner products of a query row with a key row exceed the threshold, its row sums, and its product with the
  batch's rows of `x`, both accumulated over sixteen tiles of 512 key rows; then the accumulated product divided by
  the larger of the accumulated row sum and one.

  The region has thirty-two grid points (four batches by eight query tiles). At a point the body finds the query
  tile of the normalised rows, the whole batch of normalised rows and the whole batch of `x` in its three input
  buffers, runs the sixteen trips carrying the pair (row sums, product), and writes its output block whole with one
  store. The carried pair after the trips is the recursion over the trips of what one trip yields from the pair before
  it. The two windows that read the normalised rows read ONE array: the region holds that array as two half shares,
  one per window. Stated at any contents `V` of the core's arrays at the region's entry, and at any float instance.
-/
import proofs.«117135_j34677565948786_1_alg».proof.Proof.Gen.KernelIdeal.Launch
import proofs.«117135_j34677565948786_1_alg».proof.Proof.Gen.KernelIdeal.Skeleton
import proofs.«117135_j34677565948786_1_alg».proof.Proof.Gen.KernelIdeal.Loops
import proofs.«117135_j34677565948786_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether or not the point fetched it: a window
    not fetched at a point has the block index of the point before. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in its output buffer -/

/-- The whole buffer of a query tile: the rectangle the body loads the queries and stores its result through. -/
abbrev rQ : Rect S1x1024x128 := Rect.unit (s := S1x1024x128) ![0, 0, 0] S1x1024x128.size inb_S1x1024x128_S1x1024x128_0_0_0

/-- The pair (row sums, product) the sixteen trips leave, from the contents `x0`, `x1`, `x2` of the three input
    buffers: the recursion over the trips, from the pair of zero constants, of what a trip yields from the pair
    before it. -/
def carried1 (c : Dev nD) (i : grid1.Coords)
    (arg2 : Memref sig .tc .vmem S1x1024x128 .f32) (harg2 : arg2.IsWhole) (arg3 : Memref sig .tc .vmem S1x8192x128 .f32) (harg3 : arg3.IsWhole)
    (arg4 : Memref sig .tc .vmem S1x8192x128 .f32) (harg4 : arg4.IsWhole) (arg5 : Memref sig .tc .vmem S1x1024x128 .f32) (harg5 : arg5.IsWhole)
    (x0 : Vec F S1x1024x128 .f32) (x1 : Vec F S1x8192x128 .f32) (x2 : Vec F S1x8192x128 .f32) :
    FVec F S1024x1 .f32 × FVec F S1024x128 .f32 :=
  st_k1_t1 (F := F) Variants.none c none i arg2 harg2 arg3 harg3 arg4 harg4 arg5 harg5
    (View.readAt (Elt F) arg2.view rQ.toLoadRect (harg2.unread x0)) (harg3.unread x1) (harg4.unread x2)
    (k1_pay1 (F := F), k1_pay2 (F := F)) (Scf.trips k1_t1_loop.lb k1_t1_loop.ub k1_t1_loop.st)

/-- The output buffer after the body: its one store, the accumulated product divided by the larger of the
    accumulated row sum and one. -/
def out1_3 (c : Dev nD) (i : grid1.Coords)
    (arg2 : Memref sig .tc .vmem S1x1024x128 .f32) (harg2 : arg2.IsWhole) (arg3 : Memref sig .tc .vmem S1x8192x128 .f32) (harg3 : arg3.IsWhole)
    (arg4 : Memref sig .tc .vmem S1x8192x128 .f32) (harg4 : arg4.IsWhole) (arg5 : Memref sig .tc .vmem S1x1024x128 .f32) (harg5 : arg5.IsWhole)
    (x0 : Vec F S1x1024x128 .f32) (x1 : Vec F S1x8192x128 .f32) (x2 : Vec F S1x8192x128 .f32) : Vec F S1x1024x128 .f32 :=
  View.canon [⟨rQ, k1_pay6 (carried1 c i arg2 harg2 arg3 harg3 arg4 harg4 arg5 harg5 x0 x1 x2).1
    (carried1 c i arg2 harg2 arg3 harg3 arg4 harg4 arg5 harg5 x0 x1 x2).2⟩]

/-- The one store covers the buffer. -/
theorem cover1_3 (p0 : Vec F S1x1024x128 .f32) (y : S1x1024x128.Idx) :
    ∃ pc ∈ ([⟨rQ, p0⟩] : List (View.Piece (Elt F) S1x1024x128 .f32)), y ∈ pc.1.set :=
  View.cover_of_tiled [⟨rQ, p0⟩] S1x1024x128.size (by rfl) y

/-! ## The body's triple -/

set_option maxHeartbeats 1000000 in
/-- The body on whole buffers, the three inputs at contents `x0`, `x1`, `x2` and the output at anything, runs to
    the end — through the sixteen trips by the loop's invariant — leaving the inputs as they were and the output at
    `out1_3` of them. -/
theorem sound_kernel1 (c : Dev nD) (E : Set ℕ) (i : grid1.Coords)
    (arg2 : Memref sig .tc .vmem S1x1024x128 .f32) (harg2 : arg2.IsWhole) (arg3 : Memref sig .tc .vmem S1x8192x128 .f32) (harg3 : arg3.IsWhole)
    (arg4 : Memref sig .tc .vmem S1x8192x128 .f32) (harg4 : arg4.IsWhole) (arg5 : Memref sig .tc .vmem S1x1024x128 .f32) (harg5 : arg5.IsWhole)
    (x0 : Vec F S1x1024x128 .f32) (x1 : Vec F S1x8192x128 .f32) (x2 : Vec F S1x8192x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 c i arg2 harg2 arg3 harg3 arg4 harg4 arg5 harg5 x0 x1 x2)) -∗ K ⟨⟩))
      ⊢ wp frame (wpE (defs₀ (F := F)) Variants.none c none) E (cc1__agg_kernel i arg2 harg2 arg3 harg3 arg4 harg4 arg5 harg5) K := by
  simp only [cc1__agg_kernel_eq_skeleton]; unfold cc1__agg_kernel_skel
  unfold owns
  iintro ⟨⟨%f0, %hf0, H0⟩, ⟨%f1, %hf1, H1⟩, ⟨%f2, %hf2, H2⟩, ⟨%d3, %f3, -, H3⟩, Hk⟩
  obtain rfl := harg2.eq_unread hf0
  obtain rfl := harg3.eq_unread hf1
  obtain rfl := harg4.eq_unread hf2
  sl_exec
  sl_step
  iapply Hk
  isplitl [H0]
  · iexists _; isplitr; · ipureintro; exact harg2.read_unread x0
    iexact H0
  isplitl [H1]
  · iexists _; isplitr; · ipureintro; exact harg3.read_unread x1
    iexact H1
  isplitl [H2]
  · iexists _; isplitr; · ipureintro; exact harg4.read_unread x2
    iexact H2
  iexists _; isplitr
  swap; · iexact H3
  ipureintro
  exact View.read_writes_eq_canon _ _ _ (cover1_3 _)

/-! ## The region's proof data -/

/-- The output block at point `t`, from the three input blocks there. -/
def oblk1 (c : Dev nD) (t : Fin cfg1.N) : Vec F S1x1024x128 .f32 :=
  out1_3 c (grid1.coords t) (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (iblk1 V c 0 t) (iblk1 V c 1 t) (iblk1 V c 2 t)

/-- The proof data of the region on core `c`: the arrays as the region finds them; after the body at point `t` each
    input buffer at its block and the output buffer at `oblk1`; the invariant the scoped buffers no window stages
    and the generator register, untouched; nothing owed; the array of normalised rows held as its two half shares,
    one per window that reads it, the other arrays whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => oblk1 V c t
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = oblk1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold oblk1
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.RunIdeal.lean ====
/-
  The idealized program from launch to return. Its @main is the two kernel regions in a row and nothing else, so
  the core's arrays pass through three valuations: as launched; after the first region, with the array of
  normalised rows at what that region's four points wrote back; after the second, with the result array at what
  its thirty-two points wrote back. No region writes an argument array: the first reads the three of them through
  input windows, the second reads `x` through an input window and leaves `W` and the bias aside.

  The second region reads the array of normalised rows through TWO windows. Entering it, that array's buffer, held
  whole, is split into its two half shares, one per window; leaving it, both windows still hold the contents
  they were handed (an input window's array is never written), and the halves are joined back.

  Every weakly fair execution terminates, without a fault, in a state whose result array is the second region's
  and whose argument arrays are as launched; at any float instance.
-/
import proofs.«117135_j34677565948786_1_alg».proof.Proof.ProjIdeal
import proofs.«117135_j34677565948786_1_alg».proof.Proof.AggIdeal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The unscoped buffers, one by one -/

/-- The core's five unscoped buffers — the three arguments, the normalised rows, the result — each whole. -/
theorem unscopedBufs_list (c : Dev nD) (X : (b : Ref sig .tc) → Buf (Elt F) ((c : Thread nD τ).loc b)) :
    (unscopedBufs (Ix := Unit) (Name := ℕ) (U := UR sig nD τ) (Lvl := ℕ) c X : sProp 𝕄)
      = iprop((((c : Thread nD τ).loc main_arg0) ↦{fullShare} X main_arg0) ∗ (((c : Thread nD τ).loc main_arg1) ↦{fullShare} X main_arg1)
          ∗ (((c : Thread nD τ).loc main_arg2) ↦{fullShare} X main_arg2) ∗ (((c : Thread nD τ).loc main_v0) ↦{fullShare} X main_v0)
          ∗ (((c : Thread nD τ).loc main_v1) ↦{fullShare} X main_v1)) := by
  unfold unscopedBufs
  exact bigSep_eq_bigSepL_of_eq [main_arg0, main_arg1, main_arg2, main_v0, main_v1] (by decide) (by decide) _

section Shares

variable (V : (c : Dev nD) → (b : Ref sig .tc) → Buf (Elt F) ((c : Thread nD τ).loc b))

/-- The second region's windowed arrays at contents `G w`: the normalised rows twice, once at each half share, `x`
    and the result whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v0) ↦{fullShare.left} G 0) ∗ (((c : Thread nD τ).loc main_v0) ↦{fullShare.right} G 1)
          ∗ (((c : Thread nD τ).loc main_arg0) ↦{fullShare} G 2) ∗ (((c : Thread nD τ).loc main_v1) ↦{fullShare} G 3)) := by
  unfold Dat.arrays
  rw [bigSep_W1, (arr_whole1 0).set_eq_univ, (arr_whole1 2).set_eq_univ, (arr_whole1 3).set_eq_univ]
  rfl

/-- ENTRY. The unscoped buffers at the entry contents give the region's arrays at those contents — the normalised
    rows' buffer split into its halves — and the two buffers no window reads. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [unscopedBufs_list, arrays1_eq, unscopedRest1_eq]
  iintro ⟨H0, H1, H2, Hv0, Hv1⟩
  ihave Hs := (pointsTo_share (PosShare.mem_left_op_right fullShare)).1 $$ Hv0
  icases Hs with ⟨HL, HR⟩
  isplitl [HL HR H0 Hv1]
  · isplitl [HL]; · iexact HL
    isplitl [HR]; · iexact HR
    isplitl [H0]; · iexact H0
    iexact Hv1
  · isplitl [H1]; · iexact H1
    iexact H2

/-- EXIT. The region's arrays after its last point and the two buffers it left aside give the unscoped buffers at
    any contents `X'` that agree with the entry contents but at the result array, where they are what the write-backs
    left: the two input windows on the normalised rows still hold what they were handed, so the halves join. -/
theorem exit1 (c : Dev nD) (X' : (b : Ref sig .tc) → Buf (Elt F) ((c : Thread nD τ).loc b))
    (h0 : X' main_arg0 = V c main_arg0) (h1 : X' main_arg1 = V c main_arg1) (h2 : X' main_arg2 = V c main_arg2)
    (hv0 : X' main_v0 = V c main_v0) (hv1 : X' main_v1 = (dat1 V c).arrAt 3 cfg1.N) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c X' : sProp 𝕄) := by
  rw [unscopedBufs_list, arrays1_eq, unscopedRest1_eq, h0, h1, h2, hv0, hv1,
    (dat1 V c).arrAt_in 0 rfl _, (dat1 V c).arrAt_in 1 rfl _, (dat1 V c).arrAt_in 2 rfl _]
  iintro ⟨⟨HL, HR, H0, Hv1⟩, H1, H2⟩
  ihave Hv0 := (pointsTo_share (PosShare.mem_left_op_right fullShare)).2 $$ [HL HR]
  · isplitl [HL]; · iexact HL
    iexact HR
  isplitl [H0]; · iexact H0
  isplitl [H1]; · iexact H1
  isplitl [H2]; · iexact H2
  isplitl [Hv0]; · iexact Hv0
  iexact Hv1

end Shares

/-! ## The arrays' contents between the regions -/

variable (m : (ℓ : Loc nD τ sig) → Buf (Elt F) ℓ) (ρ : Dev nD → PrngReg)

/-- Core `c`'s buffers at launch. -/
abbrev W0 : Dev nD → Valuation τ sig (Elt F) := fun c b => m ((c : Dev nD), b)
/-- The same read at the TensorCore's references: what the first region's proof data take. -/
abbrev V0 : (c : Dev nD) → (b : Ref sig .tc) → Buf (Elt F) ((c : Thread nD τ).loc b) := fun c b => W0 m c b
/-- After the first region: its arrays at what its points leave (the inputs as entered, the normalised rows at the
    write-backs folded), every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what the second region's proof data take. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- The array of normalised rows the second region reads is what the first region's points left. -/
theorem V1_main_v0 (c : Dev nD) : V1 m c main_v0 = (dat0 (V0 m) c).arrAt 3 cfg0.N := W1_arr m c 3
/-- The arguments reach the second region as launched: the first region reads them through input windows. -/
theorem V1_main_arg0 (c : Dev nD) : V1 m c main_arg0 = m ((c : Thread nD τ).loc main_arg0) :=
  (W1_arr m c 0).trans (((dat0 (V0 m) c).arrAt_in 0 rfl _).trans (A_eq0 (V0 m) c 0))
theorem V1_main_arg1 (c : Dev nD) : V1 m c main_arg1 = m ((c : Thread nD τ).loc main_arg1) :=
  (W1_arr m c 1).trans (((dat0 (V0 m) c).arrAt_in 1 rfl _).trans (A_eq0 (V0 m) c 1))
theorem V1_main_arg2 (c : Dev nD) : V1 m c main_arg2 = m ((c : Thread nD τ).loc main_arg2) :=
  (W1_arr m c 2).trans (((dat0 (V0 m) c).arrAt_in 2 rfl _).trans (A_eq0 (V0 m) c 2))

/-- After the second region: the result array at what its points leave, every other buffer as it entered. -/
def W2 (c : Dev nD) : Valuation τ sig (Elt F) :=
  Function.update (W1 m c) (Proc.devRef .tc main_v1) ((dat1 (V1 m) c).arrAt 3 cfg1.N)
theorem W2_main_v1 (c : Dev nD) : W2 m c (Proc.devRef .tc main_v1) = (dat1 (V1 m) c).arrAt 3 cfg1.N := by
  unfold W2; exact Function.update_self ..
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) ..

/-! ## The proof data family and the thread state -/

/-- No pipeline has a prefetched table. -/
abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both regions: the core's generator register at some state and the core
    owing nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator
    register at some state. -/
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- The first region over the thread state: entered from every unscoped buffer as launched, left with the
    normalised rows written. Its arrays are split out of the unscoped buffers and put back at the exit contents; the
    generator register goes into the region's invariant and comes out; nothing is owed; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from what the first left, left with the result array written.
    The buffer of normalised rows is split into its halves at entry and joined at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit : (unscopedBufs (Ix := Unit) (Name := ℕ) (U := UR sig nD τ) (Lvl := ℕ) c (fun b => W1 m c b) : sProp 𝕄)
        ⊢ iprop((pdats m 1 c).arrays ((pdats m 1 c).arrAt · 0)
          ∗ Pipeline.unscopedRest (Ix := Unit) (Name := ℕ) (U := UR sig nD τ) (Lvl := ℕ) spec1 c (V1 m c)) := entry1 (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (V1 m c))
        ⊢ (unscopedBufs (Ix := Unit) (Name := ℕ) (U := UR sig nD τ) (Lvl := ℕ) c (fun b => W2 m c b) : sProp 𝕄) :=
      exit1 (V1 m) c (fun b => W2 m c b)
        (W2_of_ne m c main_arg0 (by decide)) (W2_of_ne m c main_arg1 (by decide)) (W2_of_ne m c main_arg2 (by decide))
        (W2_of_ne m c main_v0 (by decide)) (W2_main_v1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the two regions, and the launch -/

abbrev segs : List (Pipeline.Seg (pcfgs (F := F)) adm (pdats m) () defs₀ 𝒱₀ L lv) :=
  [ .region (reg0 m), .region (reg1 m) ]
/-- @main is the run of the two regions. -/
theorem main_run (c : Dev nD) : main (F := F) c = Pipeline.Seg.run (segs m) := (main_chain c).trans (by chain_rfl)

set_option backward.isDefEq.respectTransparency.types false in
/-- THE RUN. From any memory with zero counters, every weakly fair execution of @main on the TensorCores terminates,
    nothing faulting, in a state whose result array holds what the second region's points wrote back over the
    array of rows the first region's points wrote back, and whose argument arrays are as launched. -/
theorem run_values : θ_run defs (onTc (τ := τ) (main (F := F))) ⟨m, fun _ => 0, ρ⟩ (fun r => ∀ c : Dev nD,
      r.2.mem ((c.tc : Thread nD τ).loc main_v1) = (dat1 (V1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_main_v1 m c),
       (h c _ (mem_uc main_arg0 (by decide))).trans ((W2_of_ne m c main_arg0 (by decide)).trans (V1_main_arg0 m c)),
       (h c _ (mem_uc main_arg1 (by decide))).trans ((W2_of_ne m c main_arg1 (by decide)).trans (V1_main_arg1 m c)),
       (h c _ (mem_uc main_arg2 (by decide))).trans ((W2_of_ne m c main_arg2 (by decide)).trans (V1_main_arg2 m c))⟩)

/-- THE FRAME: the run, keeping only that the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_values m ρ)

end Cert.KernelIdeal.Hand

end
-- ==== Proof.Spec.lean ====
/-
  What the two programs compute, as functions of the argument arrays over the extended reals, and the one law
  that joins the two arrangements of the last step.

  For a batch `b` and a row `n`: `lin b n o` is entry `o` of `x[b, n, :] · Wᵀ + bias`; the row is divided by the
  larger of its Euclidean norm and a small positive constant (`unitRow`). From an array `p` of such rows,
  `adj p b n m` is 1 when the inner product of rows `n` and `m` of batch `b` exceeds the threshold and 0 otherwise,
  and `deg p b n` is the larger of the row sum of `adj` and one. The kernel leaves
  `(∑ m, adj · x[b, m, d]) / deg`, the reference `∑ m, (adj / deg) · x[b, m, d]`: equal when every entry of `x` is a
  real number, because then every term is a real number and division by the positive real `deg` distributes over
  the finite sum.
-/
import Idealize.ShloMosaic.Lib.ValueIdx
import Idealize.ShloMosaic.PureOps.Ideal.Laws

noncomputable section

open scoped BigOperators

namespace Cert.Spec

open Idealize.ShloMosaic Idealize.ShloMosaic.ValueIdx

/-- The shapes of `x` (and of every batch-by-row-by-feature array), of `W` and of the bias. -/
abbrev SX : Shape := ⟨3, ![4, 8192, 128]⟩
abbrev SW : Shape := ⟨2, ![128, 128]⟩
abbrev SB : Shape := ⟨1, ![128]⟩

/-- The three float constants of the programs, as the numbers their words denote. -/
abbrev eps : EReal := Ideal.ofBits .f32 0x2B8CBCCC#32
abbrev thr : EReal := Ideal.ofBits .f32 0x3F266666#32
abbrev one : EReal := Ideal.ofBits .f32 0x3F800000#32

/-- Entry `o` of row `n` of batch `b` of `x · Wᵀ + bias`. -/
def lin (x : SX.Idx → EReal) (W : SW.Idx → EReal) (bias : SB.Idx → EReal) (b : Fin 4) (n : Fin 8192) (o : Fin 128) : EReal :=
  (∑ d : Fin 128, x (ix3 b n d) * W (ix2 o d)) + bias (ix1 o)

/-- The larger of the row's Euclidean norm and the small constant. -/
def rowNorm (x : SX.Idx → EReal) (W : SW.Idx → EReal) (bias : SB.Idx → EReal) (b : Fin 4) (n : Fin 8192) : EReal :=
  max (Ideal.sqrt (∑ o : Fin 128, lin x W bias b n o * lin x W bias b n o)) eps

/-- The row divided by that. -/
def unitRow (x : SX.Idx → EReal) (W : SW.Idx → EReal) (bias : SB.Idx → EReal) (b : Fin 4) (n : Fin 8192) (o : Fin 128) : EReal :=
  Ideal.div (lin x W bias b n o) (rowNorm x W bias b n)

/-- The array of those rows. -/
def unitRows (x : SX.Idx → EReal) (W : SW.Idx → EReal) (bias : SB.Idx → EReal) : SX.Idx → EReal :=
  fun i => unitRow x W bias (i 0) (i 1) (i 2)

theorem unitRows_ix3 (x : SX.Idx → EReal) (W : SW.Idx → EReal) (bias : SB.Idx → EReal) (b : Fin 4) (n : Fin 8192) (o : Fin 128) :
    unitRows x W bias (ix3 b n o) = unitRow x W bias b n o := rfl

/-- The inner product of rows `n` and `m` of batch `b` of an array `p`. -/
def sim (p : SX.Idx → EReal) (b : Fin 4) (n m : Fin 8192) : EReal := ∑ e : Fin 128, p (ix3 b n e) * p (ix3 b m e)

/-- One where it exceeds the threshold, zero elsewhere. -/
def adj (p : SX.Idx → EReal) (b : Fin 4) (n m : Fin 8192) : EReal := if thr < sim p b n m then 1 else 0

/-- The larger of the row sum and one. -/
def deg (p : SX.Idx → EReal) (b : Fin 4) (n : Fin 8192) : EReal := max (∑ m : Fin 8192, adj p b n m) one

/-- The kernel's arrangement: the sum, then the division. -/
def aggK (p x : SX.Idx → EReal) : SX.Idx → EReal :=
  fun i => Ideal.div (∑ m : Fin 8192, adj p (i 0) (i 1) m * x (ix3 (i 0) m (i 2))) (deg p (i 0) (i 1))

theorem aggK_ix3 (p x : SX.Idx → EReal) (b : Fin 4) (n : Fin 8192) (d : Fin 128) :
    aggK p x (ix3 b n d) = Ideal.div (∑ m : Fin 8192, adj p b n m * x (ix3 b m d)) (deg p b n) := rfl

/-- The reference's arrangement: the division, then the sum. -/
def aggR (p x : SX.Idx → EReal) : SX.Idx → EReal :=
  fun i => ∑ m : Fin 8192, Ideal.div (adj p (i 0) (i 1) m) (deg p (i 0) (i 1)) * x (ix3 (i 0) m (i 2))

theorem aggR_ix3 (p x : SX.Idx → EReal) (b : Fin 4) (n : Fin 8192) (d : Fin 128) :
    aggR p x (ix3 b n d) = ∑ m : Fin 8192, Ideal.div (adj p b n m) (deg p b n) * x (ix3 b m d) := rfl

/-- The inclusion of the reals in the extended reals carries a finite sum of reals to the sum of the images
    (it carries zero to zero and a sum of two reals to the sum of the images; induct on the index set). -/
theorem coe_sum_rows (s : Finset (Fin 8192)) (f : Fin 8192 → ℝ) :
    ((∑ m ∈ s, f m : ℝ) : EReal) = ∑ m ∈ s, (f m : EReal) := by
  classical
  induction s using Finset.induction_on with
  | empty => simp
  | insert a s ha ih => rw [Finset.sum_insert ha, Finset.sum_insert ha, EReal.coe_add, ih]

/-- The word of `one` has sign 0, exponent field 127 and an empty fraction: it denotes `2 ^ 23 · 2 ^ (127 - 127 - 23) = 1`. -/
theorem one_eq_coe : one = ((1 : ℝ) : EReal) := by
  simp [one, Ideal.ofBits, Ideal.ieee, -EReal.coe_mul]; norm_num

/-- The indicator of "the inner product exceeds the threshold" as a real number. -/
def adjReal (p : SX.Idx → EReal) (b : Fin 4) (n m : Fin 8192) : ℝ := if thr < sim p b n m then 1 else 0

/-- `adj` is the image of that real indicator: both are the same case split with values 1 and 0. -/
theorem adj_eq_coe (p : SX.Idx → EReal) (b : Fin 4) (n m : Fin 8192) :
    adj p b n m = ((adjReal p b n m : ℝ) : EReal) := by
  unfold adj adjReal
  split_ifs <;> simp

/-- The larger of the real row sum of the indicator and 1: a real number, at least 1. -/
def degReal (p : SX.Idx → EReal) (b : Fin 4) (n : Fin 8192) : ℝ := max (∑ m : Fin 8192, adjReal p b n m) 1

/-- `deg` is the image of `degReal`: the row sum of images is the image of the row sum, `one` is the image of 1,
    and the inclusion of the reals is monotone, so it commutes with taking the larger of two. -/
theorem deg_eq_coe (p : SX.Idx → EReal) (b : Fin 4) (n : Fin 8192) :
    deg p b n = ((degReal p b n : ℝ) : EReal) := by
  unfold deg degReal
  rw [EReal.coe_strictMono.monotone.map_max, coe_sum_rows, one_eq_coe]
  simp only [adj_eq_coe]

/-- `degReal` is at least 1, so it is not zero. -/
theorem degReal_ne_zero (p : SX.Idx → EReal) (b : Fin 4) (n : Fin 8192) : degReal p b n ≠ 0 :=
  ne_of_gt (lt_of_lt_of_le one_pos (le_max_right _ _))

/-- The law at one entry `(b, n, d)`.

    Write `a m` for the real indicator of row `n` against row `m`, `D` for the real `degReal` (nonzero) and
    `r m` for the real number that `x[b, m, d]` is. Dividing by the image of `D` is multiplying by the image of
    `1 / D`, so the kernel's side is the image of `(∑ m, a m · r m) · (1 / D)` and the reference's side the image of
    `∑ m, (a m · (1 / D)) · r m`. In the reals the first is `∑ m, a m · r m · (1 / D)` (a sum times a constant is the
    sum of the products), which agrees with the second term by term by commutativity. -/
theorem aggK_eq_aggR_at (p x : SX.Idx → EReal) (hx : ∀ i, ∃ r : ℝ, x i = (r : EReal))
    (b : Fin 4) (n : Fin 8192) (d : Fin 128) : aggK p x (ix3 b n d) = aggR p x (ix3 b n d) := by
  choose xr hxr using hx
  have hne := degReal_ne_zero p b n
  rw [aggK_ix3, aggR_ix3, deg_eq_coe]
  simp only [Ideal.div_coe hne, adj_eq_coe, hxr]
  simp only [← EReal.coe_mul, ← coe_sum_rows]
  rw [Finset.sum_mul]
  refine congrArg _ (Finset.sum_congr rfl fun m _ => ?_)
  ring

/-- THE LAW. For `x` with real entries the two arrangements agree, whatever the array `p`: every index is the
    triple of its coordinates, and the law holds at each triple. -/
theorem aggK_eq_aggR (p x : SX.Idx → EReal) (hx : ∀ i, ∃ r : ℝ, x i = (r : EReal)) : aggK p x = aggR p x := by
  funext i
  rw [eq_ix3 i]
  exact aggK_eq_aggR_at p x hx (i 0) (i 1) (i 2)

end Cert.Spec

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.ProjBody.lean ====
/-
  The first region's output block at an entry, at the extended reals. At grid point `t` (batch `t`) the body's stored
  value at row `n`, feature `o` of its block is entry `o` of row `n` of batch `t` of `x · Wᵀ + bias` divided by the
  larger of that row's Euclidean norm and the small constant: the truncations to the narrower float format are the
  identity, the transposed product into a zero accumulator is the sum over the contracted coordinate of
  `x[t, n, d] · W[o, d]`, the lane sum of the squares the sum over the row, and the input blocks read the batch's rows
  of `x`, all of `W` and all of the bias.

  The argument runs in three steps. First the body's arithmetic alone, over any three loaded values: the product plus
  bias at an entry (`proj_apply`), then the whole stored value at an entry (`k0_pay1_apply`), each layout operation
  read at coordinates — a leading unit axis dropped or added, a transpose, one row or one column repeated. Then the
  three input blocks at a point, read off their arrays through the windows' index maps (`iblk0_0_apply`,
  `iblk0_1_apply`, `iblk0_2_apply`). Last the two are put together.
-/
import proofs.«117135_j34677565948786_1_alg».proof.Proof.ProjIdeal
import proofs.«117135_j34677565948786_1_alg».proof.Proof.Spec
import proofs.«117135_j34677565948786_1_alg».proof.Proof.LibDot
import Idealize.ShloMosaic.Lib.Pipeline.Value
import Idealize.ShloMosaic.Lib.ValueLayout

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

/-! ## Two column layouts

A row sum kept as a column: the vector of the row sums is re-laid as an `a × 1` column, and the column is repeated
along each row to divide an `a × b` array row by row. Each is read at coordinates here. -/

/-- A vector of length `a` cast to an `a × 1` column reads, at `(i, u)`, the vector at `i`: the one column coordinate
    `u` is `0`, so both indices sit at row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`: the row axis is kept (also when
    `a = 1`, where the only row is row `0`), the unit axis reads its one coordinate. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's arithmetic at an entry

Over any three loaded values `x0` (one batch of rows, `1 × 8192 × 128`), `x1` (the weights, `128 × 128`) and `x2` (the
bias, `128`). -/

/-- Entry `o` of row `n` of `x0 · x1ᵀ + x2`: the inner product of row `n` of the batch with row `o` of the weights, plus
    the bias at `o`. -/
def linRow (x0 : FVec Ideal S1x8192x128 .f32) (x1 : FVec Ideal S128x128 .f32) (x2 : FVec Ideal S128 .f32)
    (n : Fin 8192) (o : Fin 128) : EReal :=
  (∑ d : Fin 128, x0 (ix3 (0 : Fin 1) n d) * x1 (ix2 o d)) + x2 (ix1 o)

/-- The same array as the body forms it: the batch with its unit axis dropped and the weights transposed, both passed
    through the narrower float format, multiplied into a zero accumulator; the bias laid as one row and repeated
    down the rows; the two added. -/
def proj (x0 : FVec Ideal S1x8192x128 .f32) (x1 : FVec Ideal S128x128 .f32) (x2 : FVec Ideal S128 .f32) :
    FVec Ideal S8192x128 .f32 :=
  addf (matmul dot_S8192x128_S128x128_S8192x128_1_0_0_1_n_n none
        (truncf .bf16 (shapeCast S8192x128 x0 shapeCasts_S1x8192x128_S8192x128) bitsLt_bf16_f32)
        (transpose S128x128 [1, 0] (truncf .bf16 x1 bitsLt_bf16_f32) transposes_S128x128_p1_0_S128x128)
        (constant S8192x128 .f32 0x00000000#32))
    (broadcastTo S8192x128 (shapeCast S1x128 x2 shapeCasts_S128_S1x128) broadcasts_S1x128_S8192x128)

/-- The body's product plus bias at `(n, o)` is `linRow` there. The product of an `8192 × 128` by a `128 × 128` operand
    into zero is, at `(n, o)`, the sum over `d` of left `(n, d)` times right `(d, o)`; the left operand at `(n, d)` is
    the batch at `(0, n, d)` (the change of format is the identity on extended reals, the dropped axis has the one
    coordinate `0`); the right operand at `(d, o)` is the weights at `(o, d)` (the transpose swaps the coordinates);
    the repeated bias row at `(n, o)` is the bias at `o`. -/
theorem proj_apply (x0 : FVec Ideal S1x8192x128 .f32) (x1 : FVec Ideal S128x128 .f32) (x2 : FVec Ideal S128 .f32)
    (n : Fin 8192) (o : Fin 128) : proj x0 x1 x2 (ix2 n o) = linRow x0 x1 x2 n o := by
  unfold proj linRow
  refine (addf_apply _ _ _).trans ?_
  refine congrArg₂ (· + ·) ?_ ?_
  · refine (Cert.LibDot.matmul_10_zero_apply (M := 8192) (K := 128) (N := 128)
      dot_S8192x128_S128x128_S8192x128_1_0_0_1_n_n rfl rfl rfl rfl rfl rfl none _ _ n o).trans ?_
    refine Finset.sum_congr rfl fun d _ => ?_
    refine congrArg₂ (· * ·) ?_ ?_
    · exact (truncf_apply (ψ := .bf16) _ bitsLt_bf16_f32 _).trans (shapeCast_1ab_ab_apply x0 _ n d)
    · exact (transpose_ix2_apply _ _ d o).trans (truncf_apply (ψ := .bf16) x1 bitsLt_bf16_f32 _)
  · exact (broadcastTo_1b_ab_apply _ _ n o).trans (shapeCast_a_1a_apply x2 _ 0 o)

/-- The sum along the lanes of an `8192 × 128` array, started from the zero word, is at row `n` the sum over `o` of the
    array at `(n, o)`: the reduced index `n` with the lane coordinate `o` put back on axis 1 is `(n, o)`. -/
theorem rowSum_apply (v : FVec Ideal S8192x128 .f32) (n : Fin 8192) :
    multiReduction (F := Ideal) .add [1] S8192 v 0x00000000#32 reduces_S8192x128_S8192 (.inl rfl) rfl (ix1 n)
      = ∑ o : Fin 128, v (ix2 n o) := by
  refine (Ideal.multiReduction_add_single v 0x00000000#32 reduces_S8192x128_S8192 (.inl rfl) rfl (ix1 n)).trans ?_
  refine Finset.sum_congr rfl fun o _ => congrArg v ?_
  funext a; apply Fin.ext
  match a with
  | ⟨0, _⟩ => rfl
  | ⟨1, _⟩ => rfl

/-- THE STORED VALUE AT AN ENTRY: at `(0, n, o)` the body stores `linRow n o` divided by the larger of the square root
    of the sum over the row of the squares of `linRow n ·` and the small constant. Outermost first: the added unit
    axis reads `(n, o)`; the quotient is taken entry by entry; the divisor is a column repeated along each row, so it is
    read at `(n, 0)`; there it is the larger of the square root of the column of row sums and the constant; the column
    at `(n, 0)` is the vector of row sums at `n`; and that is the sum over the row of the squares. -/
theorem k0_pay1_apply (x0 : FVec Ideal S1x8192x128 .f32) (x1 : FVec Ideal S128x128 .f32) (x2 : FVec Ideal S128 .f32)
    (n : Fin 8192) (o : Fin 128) :
    k0_pay1 (F := Ideal) x0 x1 x2 (ix3 (0 : Fin 1) n o)
      = Ideal.div (linRow x0 x1 x2 n o)
          (max (Ideal.sqrt (∑ o' : Fin 128, linRow x0 x1 x2 n o' * linRow x0 x1 x2 n o')) Cert.Spec.eps) := by
  unfold k0_pay1
  refine (shapeCast_ab_1ab_apply _ _ 0 n o).trans ?_
  refine (divf_apply _ _ _).trans ?_
  refine congrArg₂ Ideal.div (proj_apply x0 x1 x2 n o) ?_
  refine (broadcastTo_a1_ab_apply _ _ n o).trans ?_
  refine (maximumf_apply _ _ _).trans ?_
  refine congrArg₂ max ?_ rfl
  show Ideal.sqrt _ = _
  refine congrArg Ideal.sqrt ?_
  refine (shapeCast_a_a1_apply _ _ n 0).trans ?_
  refine (rowSum_apply _ n).trans ?_
  refine Finset.sum_congr rfl fun o' _ => ?_
  refine (mulf_apply _ _ _).trans ?_
  exact congrArg₂ (· * ·) (proj_apply x0 x1 x2 n o') (proj_apply x0 x1 x2 n o')

variable (V : (c : Dev nD) → (b : Ref sig .tc) → Buf (Elt Ideal) ((c : Thread nD τ).loc b))

/-- A point of the first region's grid is a batch. -/
def batch0 (t : Fin cfg0.N) : Fin 4 := Fin.cast N_0 t

/-! ## The input blocks at a point

An element of a window's block sits in the window's array, on each axis, at the block index times the block's extent
plus the element's own coordinate in the block. -/

/-- The body loads and stores through whole-buffer rectangles: their offsets are zero on every axis. -/
theorem zeroOff3 : (![0, 0, 0] : Fin 3 → Nat) = fun _ => 0 := funext fun a => by fin_cases a <;> rfl
theorem zeroOff2 : (![0, 0] : Fin 2 → Nat) = fun _ => 0 := funext fun a => by fin_cases a <;> rfl
theorem zeroOff1 : (![0] : Fin 1 → Nat) = fun _ => 0 := funext fun a => by fin_cases a <;> rfl

/-- The block indices of the three input windows, over the four points: the block of `x` is the point's own batch and
    is whole in rows and features; the weights and the bias are one block each, at index zero. -/
theorem inIndex0 : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0 :=
  (by decide +kernel : ∀ t : Fin grid0.N, _)

/-- The block of `x` at point `t` is batch `t`: its entry at row `n`, feature `d` is `x[t, n, d]` (on the batch axis
    `t · 1 + 0`, on the other two `0 · extent` plus the coordinate). -/
theorem iblk0_0_apply (c : Dev nD) (t : Fin cfg0.N) (n : Fin 8192) (d : Fin 128) :
    iblk0 V c 0 t (ix3 (0 : Fin 1) n d) = V c main_arg0 (ix3 (batch0 t) n d) := by
  obtain ⟨e0, e1, e2, -⟩ := inIndex0 t
  show V c main_arg0 (((cfg0.win 0).blk t).view.emb (ix3 (0 : Fin 1) n d)) = V c main_arg0 (ix3 (batch0 t) n d)
  refine congrArg (V c main_arg0) ?_
  funext a; apply Fin.ext
  match a with
  | ⟨0, _⟩ => show win0_0.index t (0 : Fin 3) * 1 + 1 * 0 = t.val; omega
  | ⟨1, _⟩ => show win0_0.index t (1 : Fin 3) * 8192 + 1 * n.val = n.val; omega
  | ⟨2, _⟩ => show win0_0.index t (2 : Fin 3) * 128 + 1 * d.val = d.val; omega

/-- The block of the weights at any point is all of `W`. -/
theorem iblk0_1_apply (c : Dev nD) (t : Fin cfg0.N) (y : S128x128.Idx) : iblk0 V c 1 t y = V c main_arg1 y := by
  obtain ⟨-, -, -, e3, e4, -⟩ := inIndex0 t
  show V c main_arg1 (((cfg0.win 1).blk t).view.emb y) = V c main_arg1 y
  refine congrArg (V c main_arg1) ?_
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The block of the bias at any point is all of the bias. -/
theorem iblk0_2_apply (c : Dev nD) (t : Fin cfg0.N) (y : S128.Idx) : iblk0 V c 2 t y = V c main_arg2 y := by
  obtain ⟨-, -, -, -, -, e5⟩ := inIndex0 t
  show V c main_arg2 (((cfg0.win 2).blk t).view.emb y) = V c main_arg2 y
  refine congrArg (V c main_arg2) ?_
  funext a; apply Fin.ext
  match a with
  | ⟨0, _⟩ => show win0_2.index t (0 : Fin 1) * 128 + 1 * (y 0).val = (y 0).val; omega

/-- So the row the body forms from its three blocks at point `t` is the row of batch `t` of `x · Wᵀ + bias`: term by
    term the same products, and the same bias. -/
theorem linRow_blk (c : Dev nD) (t : Fin cfg0.N) (n : Fin 8192) (o : Fin 128) :
    linRow (iblk0 V c 0 t) (iblk0 V c 1 t) (iblk0 V c 2 t) n o
      = Cert.Spec.lin (V c main_arg0) (V c main_arg1) (V c main_arg2) (batch0 t) n o := by
  unfold linRow Cert.Spec.lin
  exact congrArg₂ (· + ·)
    (Finset.sum_congr rfl fun d _ => congrArg₂ (· * ·) (iblk0_0_apply V c t n d) (iblk0_1_apply V c t (ix2 o d)))
    (iblk0_2_apply V c t (ix1 o))

/-! ## The output block -/

/-- The output block at point `t`, at row `n` and feature `o`, is that entry of the unit row of batch `t`: the body's one
    store covers its buffer, so the buffer holds the stored value; its loads through whole-buffer rectangles read the
    three blocks; the stored value at the entry is the row entry over the larger of the row's norm and the constant
    (`k0_pay1_apply`), and the row is batch `t`'s (`linRow_blk`), in the numerator and under the square root alike. -/
theorem oblk0_apply (c : Dev nD) (t : Fin cfg0.N) (n : Fin 8192) (o : Fin 128) :
    out0_3 (F := Ideal) (iblk0 V c 0 t) (iblk0 V c 1 t) (iblk0 V c 2 t) (ix3 (0 : Fin 1) n o)
      = Cert.Spec.unitRow (V c main_arg0) (V c main_arg1) (V c main_arg2) (batch0 t) n o := by
  unfold out0_3
  rw [View.canon_unit_zero zeroOff3]
  simp only [View.ld_unit_zero (S := S1x8192x128) zeroOff3, View.ld_unit_zero (S := S128x128) zeroOff2,
    View.ld_unit_zero (S := S128) zeroOff1]
  refine (k0_pay1_apply (iblk0 V c 0 t) (iblk0 V c 1 t) (iblk0 V c 2 t) n o).trans ?_
  unfold Cert.Spec.unitRow Cert.Spec.rowNorm
  exact congrArg₂ Ideal.div (linRow_blk V c t n o)
    (congrArg (fun s => max (Ideal.sqrt s) Cert.Spec.eps)
      (Finset.sum_congr rfl fun o' _ => congrArg₂ (· * ·) (linRow_blk V c t n o') (linRow_blk V c t n o')))

end Cert.KernelIdeal.Hand

end
-- ==== Proof.ProjValue.lean ====
/-
  What the first kernel region leaves in its result array, at the extended reals: entry (b, n, o) is entry `o` of
  row `n` of batch `b` of `x · Wᵀ + bias`, divided by the larger of that row's Euclidean norm and the small
  constant. Grid point `b` writes block `b` of the array (all rows of batch `b`), the four blocks tile the
  array, and the body's stored value at an entry of its block is that quotient: the matrix product into a zero
  accumulator is the sum over the contracted coordinate, the lane sum of squares the sum over the row.
-/
import proofs.«117135_j34677565948786_1_alg».proof.Proof.ProjBody
import proofs.«117135_j34677565948786_1_alg».proof.Proof.Spec
import proofs.«117135_j34677565948786_1_alg».proof.Proof.LibDot
import Idealize.ShloMosaic.Lib.Pipeline.Value
import Idealize.ShloMosaic.Lib.ValueLayout

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The result window's index map over the four points: point `t` is at block (t, 0, 0), so its block is all
    rows and all features of batch `t`. -/
theorem idx_facts0 : ∀ t : Fin cfg0.N, win0_3.index t (0 : Fin 3) = t.val ∧ win0_3.index t (1 : Fin 3) = 0
    ∧ win0_3.index t (2 : Fin 3) = 0 :=
  (by decide +kernel : ∀ t : Fin grid0.N, _)

/-- What point `t` writes back is block `t` of the array of unit rows: entry (0, n, o) of the block sits at array
    index (t, n, o), and the body's stored value there is entry `o` of the unit row `n` of batch `t`. -/
theorem flushed0_eq (c : Dev nD) (t : Fin cfg0.N) :
    (dat0 (F := Ideal) V c).flushed 3 t
      = ((cfg0.win 3).blk t).view.read (Elt Ideal) (Cert.Spec.unitRows (V c main_arg0) (V c main_arg1) (V c main_arg2)) := by
  show (cfg0.win 3).cut (grid0.coords t) ((dat0 V c).after 3 t) = _
  rw [after0_3]
  obtain ⟨e0, e1, e2⟩ := idx_facts0 t
  refine funext fun (y : S1x8192x128.Idx) => ?_
  show out0_3 (F := Ideal) (iblk0 V c 0 t) (iblk0 V c 1 t) (iblk0 V c 2 t) y
    = Cert.Spec.unitRows (V c main_arg0) (V c main_arg1) (V c main_arg2) (((cfg0.win 3).blk t).view.emb y)
  obtain ⟨n, hn⟩ : ∃ n : Fin 8192, n = y 1 := ⟨y 1, rfl⟩
  obtain ⟨o, ho⟩ : ∃ o : Fin 128, o = y 2 := ⟨y 2, rfl⟩
  have h0 : (y 0).val < 1 := (y 0).isLt
  -- the block's leading axis has one entry, so a block index is (0, n, o)
  have hy : y = ix3 (0 : Fin 1) n o := by
    funext a
    match a with
    | ⟨0, _⟩ => exact Fin.ext (by show (y 0).val = 0; omega)
    | ⟨1, _⟩ => exact hn.symm
    | ⟨2, _⟩ => exact ho.symm
  -- and it sits in the array at (block index × block extent + offset) on each axis: (t, n, o)
  have hemb : ((cfg0.win 3).blk t).view.emb y = ix3 (batch0 t) n o := by
    funext a; apply Fin.ext
    match a with
    | ⟨0, _⟩ => show win0_3.index t (0 : Fin 3) * 1 + 1 * (y 0).val = t.val; omega
    | ⟨1, _⟩ => show win0_3.index t (1 : Fin 3) * 8192 + 1 * (y 1).val = n.val; rw [hn]; omega
    | ⟨2, _⟩ => show win0_3.index t (2 : Fin 3) * 128 + 1 * (y 2).val = o.val; rw [ho]; omega
  rw [hemb, Cert.Spec.unitRows_ix3, hy]
  exact oblk0_apply V c t n o

/-- An index of the result array is in point `t`'s block iff each coordinate is in the block's range on its axis. -/
theorem mem_blk0 (t : Fin cfg0.N) (i : S4x8192x128.Idx) :
    i ∈ ((cfg0.win 3).blk t).view.set ↔ ∀ a : Fin 3, win0_3.index t a * S1x8192x128.size a ≤ (i a).val
      ∧ (i a).val < win0_3.index t a * S1x8192x128.size a + S1x8192x128.size a := by
  show i ∈ ((View.whole main_v0).slice (win0_3.rect t)).set ↔ _
  rw [View.set_slice_whole, Rect.mem_set_unit]
  exact Iff.rfl

/-- The four blocks cover the result array: index (b, n, o) is in the block of point `b`, which writes it back. -/
theorem cover0 (i : S4x8192x128.Idx) :
    ∃ t : Fin cfg0.N, (cfg0.win 3).flush t = true ∧ i ∈ ((cfg0.win 3).blk t).view.set := by
  have hi0 : (i 0).val < 4 := (i 0).isLt
  have hi1 : (i 1).val < 8192 := (i 1).isLt
  have hi2 : (i 2).val < 128 := (i 2).isLt
  obtain ⟨t, ht⟩ : ∃ t : Fin cfg0.N, t.val = (i 0).val :=
    ⟨⟨(i 0).val, by rw [show cfg0.N = 4 from N_0]; exact hi0⟩, rfl⟩
  refine ⟨t, flush0_3 t, ?_⟩
  rw [mem_blk0]
  obtain ⟨e0, e1, e2⟩ := idx_facts0 t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 8192 ≤ (i 1).val ∧ (i 1).val < win0_3.index t (1 : Fin 3) * 8192 + 8192; omega
  | ⟨2, _⟩ => show win0_3.index t (2 : Fin 3) * 128 ≤ (i 2).val ∧ (i 2).val < win0_3.index t (2 : Fin 3) * 128 + 128; omega

/-- The first region's result array after its four points is the array of unit rows of the three arrays it read. -/
theorem arr0_eq (c : Dev nD) :
    (dat0 (F := Ideal) V c).arrAt 3 cfg0.N = Cert.Spec.unitRows (V c main_arg0) (V c main_arg1) (V c main_arg2) := by
  -- every point writes back a block of the one function, and the blocks cover the array: the array is that function
  exact (dat0 (F := Ideal) V c).arrAt_eq_of_cover 3 (Cert.Spec.unitRows (V c main_arg0) (V c main_arg1) (V c main_arg2))
    (fun t _ => flushed0_eq V c t) cover0

end Cert.KernelIdeal.Hand

end
-- ==== Proof.AggTrip.lean ====
/-
  What the sixteen trips of the second region's body leave in the carried pair (row sums, product), as an explicit
  recursion, at any float instance. Trip `k` loads rows 512·k … 512·k + 511 of the batch's normalised rows and of the
  batch's rows of `x`, and yields the pair before it with that tile's row sums added to the first component and that
  tile's product added to the second. The pair before the first trip is the pair of zero constants.
-/
import proofs.«117135_j34677565948786_1_alg».proof.Proof.AggIdeal

set_option maxRecDepth 16384

noncomputable section

open scoped BigOperators

namespace Cert.KernelIdeal.Hand

open Idealize.ShloMosaic Idealize.ShloMosaic.TcCoe
open Idealize.SL.Sem
open Cert.KernelIdeal Cert.KernelIdeal.Gen

variable {F : FTy → Type} [FloatOps F]

/-- The rectangle trip `k` loads from each of the two full-batch buffers: 512 rows from row 512·k. -/
abbrev rT (k : Fin k1_t1_loop.trips) : Rect S1x8192x128 :=
  Rect.unit (s := S1x8192x128) (k1_off1 k) S1x512x128.size (k1_off1_inb k)

/-- The carried pair before trip `k`, from the loaded query tile `v0` and the contents `x1`, `x2` of the two
    full-batch buffers. -/
def foldT (v0 : Vec F S1x1024x128 .f32) (x1 : Vec F S1x8192x128 .f32) (x2 : Vec F S1x8192x128 .f32) :
    ℕ → FVec F S1024x1 .f32 × FVec F S1024x128 .f32
  | 0 => (k1_pay1 (F := F), k1_pay2 (F := F))
  | k + 1 =>
    if h : k < k1_t1_loop.trips then
      (k1_pay4 v0 (foldT v0 x1 x2 k).1 (View.ld x1 (rT ⟨k, h⟩)),
       k1_pay5 v0 (foldT v0 x1 x2 k).2 (View.ld x1 (rT ⟨k, h⟩)) (View.ld x2 (rT ⟨k, h⟩)))
    else foldT v0 x1 x2 k

/-- What one trip does to the carried pair: on whole buffers holding `x1` and `x2`, trip `k` sends the carried pair `acc` to the pair whose
    first component is `acc.1` with the row sums of the tile of `x1` it loads added, and whose second component is `acc.2`
    with the product of that tile of `x1` and the same tile of `x2` added. -/
theorem tripR_k1_t1_eq (c : Dev nD) (i : grid1.Coords)
    (arg2 : Memref sig .tc .vmem S1x1024x128 .f32) (harg2 : arg2.IsWhole) (arg3 : Memref sig .tc .vmem S1x8192x128 .f32) (harg3 : arg3.IsWhole)
    (arg4 : Memref sig .tc .vmem S1x8192x128 .f32) (harg4 : arg4.IsWhole) (arg5 : Memref sig .tc .vmem S1x1024x128 .f32) (harg5 : arg5.IsWhole)
    (v0 : Vec F S1x1024x128 .f32) (x1 : Vec F S1x8192x128 .f32) (x2 : Vec F S1x8192x128 .f32)
    (k : Fin k1_t1_loop.trips) (acc : FVec F S1024x1 .f32 × FVec F S1024x128 .f32) :
    tripR_k1_t1 (F := F) Variants.none c none i arg2 harg2 arg3 harg3 arg4 harg4 arg5 harg5 v0 (harg3.unread x1) (harg4.unread x2) k acc
      = (k1_pay4 v0 acc.1 (View.ld x1 (rT k)), k1_pay5 v0 acc.2 (View.ld x1 (rT k)) (View.ld x2 (rT k))) := by
  -- the trip's result is the first component of a pair (a function of the carried pair, and the statement that the
  -- trip's body yields that function's value); the function's two loads read the raw contents of the two buffers
  -- through the trip's rectangle
  unfold tripR_k1_t1 trip_k1_t1
  -- a load through a rectangle reads the buffer's contents at the rectangle's indices, and the raw contents chosen
  -- for a whole buffer to read `x1` (resp. `x2`) read exactly `x1` (resp. `x2`)
  simp only [View.readAt_eq_ld, harg3.read_unread, harg4.read_unread]

/-- The query tile the second region loads before its loop: on a whole buffer holding `x0`, the load through the
    whole-block rectangle reads `x0` at that rectangle's indices. -/
theorem readAt_rQ_eq (arg2 : Memref sig .tc .vmem S1x1024x128 .f32) (harg2 : arg2.IsWhole) (x0 : Vec F S1x1024x128 .f32) :
    View.readAt (Elt F) arg2.view rQ.toLoadRect (harg2.unread x0) = View.ld x0 rQ := by
  rw [View.readAt_eq_ld, harg2.read_unread]

/-- The carried pair before trip `k` is the explicit recursion at `k`, for every `k` up to the number of trips: both
    start from the pair of zero constants, and both pass from `k` to `k + 1` by the same trip (`tripR_k1_t1_eq`). -/
theorem st_k1_t1_eq_foldT (c : Dev nD) (i : grid1.Coords)
    (arg2 : Memref sig .tc .vmem S1x1024x128 .f32) (harg2 : arg2.IsWhole) (arg3 : Memref sig .tc .vmem S1x8192x128 .f32) (harg3 : arg3.IsWhole)
    (arg4 : Memref sig .tc .vmem S1x8192x128 .f32) (harg4 : arg4.IsWhole) (arg5 : Memref sig .tc .vmem S1x1024x128 .f32) (harg5 : arg5.IsWhole)
    (v0 : Vec F S1x1024x128 .f32) (x1 : Vec F S1x8192x128 .f32) (x2 : Vec F S1x8192x128 .f32) :
    ∀ k : ℕ, k ≤ k1_t1_loop.trips →
      st_k1_t1 (F := F) Variants.none c none i arg2 harg2 arg3 harg3 arg4 harg4 arg5 harg5 v0 (harg3.unread x1) (harg4.unread x2)
          (k1_pay1 (F := F), k1_pay2 (F := F)) k
        = foldT v0 x1 x2 k
  | 0, _ => rfl
  | k + 1, hk => by
    have h : k < k1_t1_loop.trips := hk
    -- the carried pair before trip `k + 1` is trip `k` applied to the carried pair before trip `k`; that trip is the
    -- tile update above, and the pair before trip `k` is the explicit recursion at `k` by the induction hypothesis
    have hs := st_k1_t1_succ (F := F) Variants.none c none i arg2 harg2 arg3 harg3 arg4 harg4 arg5 harg5 v0
      (harg3.unread x1) (harg4.unread x2) (k1_pay1 (F := F), k1_pay2 (F := F)) ⟨k, h⟩
    refine hs.trans ?_
    rw [tripR_k1_t1_eq c i arg2 harg2 arg3 harg3 arg4 harg4 arg5 harg5 v0 x1 x2 ⟨k, h⟩,
      st_k1_t1_eq_foldT c i arg2 harg2 arg3 harg3 arg4 harg4 arg5 harg5 v0 x1 x2 k (Nat.le_of_lt h)]
    -- the explicit recursion's own successor equation, on the side where `k` is a trip
    rw [foldT, dif_pos h]

/-- The pair the sixteen trips leave is that recursion at the number of trips, from the loaded query tile. -/
theorem carried1_eq (c : Dev nD) (i : grid1.Coords)
    (arg2 : Memref sig .tc .vmem S1x1024x128 .f32) (harg2 : arg2.IsWhole) (arg3 : Memref sig .tc .vmem S1x8192x128 .f32) (harg3 : arg3.IsWhole)
    (arg4 : Memref sig .tc .vmem S1x8192x128 .f32) (harg4 : arg4.IsWhole) (arg5 : Memref sig .tc .vmem S1x1024x128 .f32) (harg5 : arg5.IsWhole)
    (x0 : Vec F S1x1024x128 .f32) (x1 : Vec F S1x8192x128 .f32) (x2 : Vec F S1x8192x128 .f32) :
    carried1 c i arg2 harg2 arg3 harg3 arg4 harg4 arg5 harg5 x0 x1 x2
      = foldT (View.ld x0 rQ) x1 x2 (Scf.trips k1_t1_loop.lb k1_t1_loop.ub k1_t1_loop.st) := by
  -- the carried pair after the loop is the carried pair "before trip sixteen", started from the zero constants, with
  -- the query tile read from the whole buffer holding `x0`; the lemma above at the number of trips gives the claim
  unfold carried1
  rw [readAt_rQ_eq arg2 harg2 x0]
  exact st_k1_t1_eq_foldT c i arg2 harg2 arg3 harg3 arg4 harg4 arg5 harg5 (View.ld x0 rQ) x1 x2 _ (le_refl _)

end Cert.KernelIdeal.Hand

end
-- ==== Proof.AggBody.lean ====
/-
  The second region's output block at an entry, at the extended reals. At grid point `t` — batch `t / 8`, query
  tile `t % 8` — the body's stored value at row `r`, feature `d` of its block is the kernel's arrangement of the
  aggregation at row `1024·(t % 8) + r` of that batch: trip `k` contributes the key rows 512·k … 512·k + 511, the
  0/1 entries are the comparisons of the inner products with the threshold converted to numbers, sixteen sums over
  512 consecutive rows starting from zero are one sum over 8192 rows, and the input blocks read the query tile and
  the whole batch of the normalised rows and the whole batch of `x`.
-/
import proofs.«117135_j34677565948786_1_alg».proof.Proof.AggTrip
import proofs.«117135_j34677565948786_1_alg».proof.Proof.Spec
import proofs.«117135_j34677565948786_1_alg».proof.Proof.LibDot
import Idealize.ShloMosaic.Lib.Pipeline.Value
import Idealize.ShloMosaic.Lib.ValueLayout

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem lt32 (t : Fin cfg1.N) : t.val < 32 := Nat.lt_of_lt_of_eq t.isLt N_1

/-- A point of the second region's grid is a batch and a query tile. -/
def batch1 (t : Fin cfg1.N) : Fin 4 := ⟨t.val / 8, by have := lt32 t; omega⟩
def row1 (t : Fin cfg1.N) (r : Fin 1024) : Fin 8192 := ⟨1024 * (t.val % 8) + r.val, by have := lt32 t; have := r.isLt; omega⟩

/-! ## The 0/1 matrix of one trip

For a tile `q` of 1024 query rows and a tile `K` of 512 key rows, entry (r, j) of the matrix the trip forms is 1 when
the inner product of query row `r` with key row `j` is above the threshold and 0 otherwise. The kernel gets it as a
matrix product with the transposed key tile, a comparison with the threshold giving one bit, the bit widened to a
32-bit integer, and that integer converted to a number. -/

/-- A one-bit word widened to thirty-two bits and read as a signed integer is one when the bit is set and zero when
    it is not. -/
theorem toInt_setWidth_ofBool (b : Bool) : (((BitVec.ofBool b).setWidth 32).toInt : ℝ) = if b then 1 else 0 := by
  cases b <;> simp

/-- The comparison "`s` is above the threshold" on the extended reals, as one bit, widened and converted to a number,
    is the number 1 when `s` is above the threshold and the number 0 when it is not. -/
theorem number_of_above_threshold (s : EReal) :
    FloatOps.sitofp (F := Ideal) .f32 (BitVec.setWidth 32 (FloatOps.cmpf (F := Ideal) (φ := .f32) .ogt s (FloatOps.ofBits .f32 0x3F266666#32)))
      = if Cert.Spec.thr < s then 1 else 0 := by
  show ((((Ideal.cmp .ogt s Cert.Spec.thr).setWidth 32).toInt : ℝ) : EReal) = _
  unfold Ideal.cmp
  rw [toInt_setWidth_ofBool]
  by_cases h : Cert.Spec.thr < s
  · simp [h]
  · simp [h]

/-- The key tile with its unit axis dropped, its format changed (the identity on the extended reals) and its two axes
    swapped reads, at (e, j), the tile's row `j` at feature `e`. -/
theorem keyTile_transposed_apply (K : Vec Ideal S1x512x128 .f32) (e : Fin 128) (j : Fin 512) :
    (transpose S128x512 [1, 0] (truncf (F := Ideal) .bf16 (shapeCast S512x128 K shapeCasts_S1x512x128_S512x128) bitsLt_bf16_f32)
        transposes_S512x128_p1_0_S128x512 (ix2 e j) : EReal) = (K (ix3 (0 : Fin 1) j e) : EReal) :=
  (transpose_ix2_apply (a := 512) (b := 128) _ transposes_S512x128_p1_0_S128x512 e j).trans
    (shapeCast_1ab_ab_apply K shapeCasts_S1x512x128_S512x128 j e)

/-- The product of the query tile with the transposed key tile, accumulated from zero, is at (r, j) the inner product
    over the 128 features of query row `r` and key row `j`. -/
theorem innerProducts_apply (q : Vec Ideal S1x1024x128 .f32) (K : Vec Ideal S1x512x128 .f32) (r : Fin 1024) (j : Fin 512) :
    matmul (F := Ideal) dot_S1024x128_S128x512_S1024x512_1_0_0_1_n_n none
        (truncf (F := Ideal) .bf16 (shapeCast S1024x128 q shapeCasts_S1x1024x128_S1024x128) bitsLt_bf16_f32)
        (transpose S128x512 [1, 0] (truncf (F := Ideal) .bf16 (shapeCast S512x128 K shapeCasts_S1x512x128_S512x128) bitsLt_bf16_f32)
          transposes_S512x128_p1_0_S128x512)
        (constant S1024x512 .f32 0x00000000#32) (ix2 r j)
      = ∑ e : Fin 128, q (ix3 (0 : Fin 1) r e) * K (ix3 (0 : Fin 1) j e) :=
  (Cert.LibDot.matmul_10_zero_apply _ rfl rfl rfl rfl rfl rfl none _ _ r j).trans
    (Finset.sum_congr rfl fun e _ => by
      rw [keyTile_transposed_apply K e j]
      exact congrArg (· * K (ix3 (0 : Fin 1) j e)) (shapeCast_1ab_ab_apply q shapeCasts_S1x1024x128_S1024x128 r e))

/-- Entry (r, j) of a trip's 0/1 matrix: 1 when the inner product of query row `r` and key row `j` is above the
    threshold, 0 otherwise. -/
theorem k1_pay3_apply (q : Vec Ideal S1x1024x128 .f32) (K : Vec Ideal S1x512x128 .f32) (r : Fin 1024) (j : Fin 512) :
    k1_pay3 (F := Ideal) q K (ix2 r j)
      = if Cert.Spec.thr < ∑ e : Fin 128, q (ix3 (0 : Fin 1) r e) * K (ix3 (0 : Fin 1) j e) then 1 else 0 := by
  unfold k1_pay3
  rw [sitofp_apply, extui_apply, cmpf_apply, broadcast_apply, innerProducts_apply]
  exact number_of_above_threshold _

/-! ## What one trip adds to the carried pair

The first carried component is a column of 1024 row sums, the second a 1024 × 128 matrix. A trip adds, to row `r` of
the first, the sum over the tile's 512 key rows of the 0/1 entries of row `r`; and to entry (r, d) of the second, the
sum over those key rows of the 0/1 entry times feature `d` of the same row of the tile of `x`. Both start at zero. -/

/-- Before the first trip both carried components are zero everywhere. -/
theorem k1_pay1_apply (i : S1024x1.Idx) : k1_pay1 (F := Ideal) i = 0 := Ideal.ofBits_zero_f32
theorem k1_pay2_apply (i : S1024x128.Idx) : k1_pay2 (F := Ideal) i = 0 := Ideal.ofBits_zero_f32

/-- A vector of 1024 entries recast as a column of 1024 rows and one lane reads, at row `r`, the vector's entry `r`:
    both have row-major position `r`. -/
theorem shapeCast_column_apply {α : Type} (x : S1024.Idx → α) (r : Fin 1024) (u : Fin 1) :
    shapeCast S1024x1 x shapeCasts_S1024_S1024x1 (ix2 r u) = x (ix1 r) :=
  shapeCast_apply x shapeCasts_S1024_S1024x1 _ _ (by
    have hu : u.val = 0 := by omega
    rw [Shape.rowMajor_val_two, Shape.rowMajor_val_one]
    show r.val = r.val * 1 + u.val
    omega)

/-- The sum along the lanes of a 1024 × 512 matrix, started from zero, is at row `r` the sum of that row's 512
    entries: the index of the matrix over row `r` with lane `j` put back is (r, j). -/
theorem tileRowSum_apply (A : FVec Ideal S1024x512 .f32) (r : Fin 1024) :
    multiReduction (F := Ideal) .add [1] S1024 A 0x00000000#32 reduces_S1024x512_S1024 (.inl rfl) rfl (ix1 r)
      = ∑ j : Fin 512, A (ix2 r j) :=
  (Ideal.multiReduction_add_single A 0x00000000#32 reduces_S1024x512_S1024 (.inl rfl) rfl (ix1 r)).trans
    (Finset.sum_congr rfl fun j _ => congrArg A (funext fun c => Fin.ext (by
      match c with
      | ⟨0, _⟩ => rfl
      | ⟨1, _⟩ => rfl)))

/-- A trip adds to row `r` of the carried row sums the sum of row `r` of its 0/1 matrix. -/
theorem k1_pay4_apply (q : Vec Ideal S1x1024x128 .f32) (acc : FVec Ideal S1024x1 .f32) (K : Vec Ideal S1x512x128 .f32)
    (r : Fin 1024) (u : Fin 1) :
    k1_pay4 (F := Ideal) q acc K (ix2 r u) = acc (ix2 r u) + ∑ j : Fin 512, k1_pay3 (F := Ideal) q K (ix2 r j) := by
  unfold k1_pay4
  rw [addf_apply, shapeCast_column_apply, tileRowSum_apply]

/-- The product of a 1024 × 512 matrix with the tile of `x` (its unit axis dropped), accumulated from zero, is at
    (r, d) the sum over the tile's 512 rows of the matrix's entry (r, j) times feature `d` of row `j`. -/
theorem weightedRows_apply (A : FVec Ideal S1024x512 .f32) (X : Vec Ideal S1x512x128 .f32) (r : Fin 1024) (d : Fin 128) :
    matmul (F := Ideal) dot_S1024x512_S512x128_S1024x128_1_0_0_1_n_n none
        (truncf (F := Ideal) .bf16 A bitsLt_bf16_f32)
        (truncf (F := Ideal) .bf16 (shapeCast S512x128 X shapeCasts_S1x512x128_S512x128) bitsLt_bf16_f32)
        (constant S1024x128 .f32 0x00000000#32) (ix2 r d)
      = ∑ j : Fin 512, A (ix2 r j) * X (ix3 (0 : Fin 1) j d) :=
  (Cert.LibDot.matmul_10_zero_apply _ rfl rfl rfl rfl rfl rfl none _ _ r d).trans
    (Finset.sum_congr rfl fun j _ =>
      congrArg (A (ix2 r j) * ·) (shapeCast_1ab_ab_apply X shapeCasts_S1x512x128_S512x128 j d))

/-- A trip adds to entry (r, d) of the carried product the sum over its 512 key rows of the 0/1 entry (r, j) times
    feature `d` of row `j` of its tile of `x`. -/
theorem k1_pay5_apply (q : Vec Ideal S1x1024x128 .f32) (acc : FVec Ideal S1024x128 .f32) (K X : Vec Ideal S1x512x128 .f32)
    (r : Fin 1024) (d : Fin 128) :
    k1_pay5 (F := Ideal) q acc K X (ix2 r d)
      = acc (ix2 r d) + ∑ j : Fin 512, k1_pay3 (F := Ideal) q K (ix2 r j) * X (ix3 (0 : Fin 1) j d) := by
  unfold k1_pay5
  rw [addf_apply, weightedRows_apply]

/-! ## The stored value from the carried pair

After the trips, entry (r, d) of the stored block is the carried product at (r, d) divided by the larger of the
carried row sum of row `r` and one. -/

/-- A column of 1024 rows broadcast along 128 lanes reads, at (r, d), the column's row `r`. -/
theorem broadcast_column_apply {α : Type} (v : S1024x1.Idx → α) (r : Fin 1024) (d : Fin 128) :
    broadcastTo S1024x128 v broadcasts_S1024x1_S1024x128 (ix2 r d) = v (ix2 r (0 : Fin 1)) := by
  refine broadcastTo_apply v broadcasts_S1024x1_S1024x128 (ix2 r d) (ix2 r (0 : Fin 1)) fun ax => ?_
  match ax with
  | ⟨0, _⟩ =>
    show r.val = if (1024 : ℕ) = 1 then 0 else r.val
    rw [if_neg (by decide)]
  | ⟨1, _⟩ =>
    show (0 : ℕ) = if (1 : ℕ) = 1 then 0 else d.val
    rw [if_pos rfl]

/-- The stored value at row `r`, feature `d`: the second carried component there, divided by the larger of the first
    carried component at row `r` and one. -/
theorem k1_pay6_apply (a1 : FVec Ideal S1024x1 .f32) (a2 : FVec Ideal S1024x128 .f32) (u : Fin 1) (r : Fin 1024) (d : Fin 128) :
    k1_pay6 (F := Ideal) a1 a2 (ix3 u r d)
      = Ideal.div (a2 (ix2 r d)) (max (a1 (ix2 r (0 : Fin 1))) Cert.Spec.one) := by
  unfold k1_pay6
  rw [shapeCast_ab_1ab_apply, divf_apply, broadcast_column_apply, maximumf_apply, broadcast_apply]
  rfl

/-! ## The rows a trip reads

There are sixteen trips, and trip `k` loads from each of the two full-batch buffers the 512 rows starting at row
512·k: row `j` of its tile is row 512·k + j of the batch. -/

/-- The loop runs sixteen trips. -/
theorem trips_eq_sixteen : k1_t1_loop.trips = 16 := by decide +kernel

/-- The row of the batch that is row `j` of trip `k`'s tile. -/
def tileRow (k : Fin k1_t1_loop.trips) (j : Fin 512) : Fin 8192 :=
  ⟨512 * k.val + j.val, by have := k.isLt; have := trips_eq_sixteen; have := j.isLt; omega⟩

/-- Trip `k`'s tile of a full-batch buffer reads, at row `j` and feature `e`, the buffer at row 512·k + j and feature
    `e`: the trip's rectangle starts at offsets (0, 512·k, 0) and has unit strides. -/
theorem ld_rT_apply (x : Vec Ideal S1x8192x128 .f32) (k : Fin k1_t1_loop.trips) (j : Fin 512) (e : Fin 128) :
    View.ld x (rT k) (ix3 (0 : Fin 1) j e) = x (ix3 (0 : Fin 1) (tileRow k j) e) := by
  show x ((rT k).idx (ix3 (0 : Fin 1) j e)) = _
  refine congrArg x (funext fun a => Fin.ext ?_)
  rw [LoadRect.idx_apply]
  match a with
  | ⟨0, _⟩ => simp [Rect.unit, k1_off1_eq k]
  | ⟨1, _⟩ => simp [Rect.unit, k1_off1_eq k, tileRow]
  | ⟨2, _⟩ => simp [Rect.unit, k1_off1_eq k]

/-- The 0/1 entry joining query row `r` of the tile `q` to row `m` of the batch `x1`: 1 when their inner product is
    above the threshold, 0 otherwise. -/
def edge (q : Vec Ideal S1x1024x128 .f32) (x1 : Vec Ideal S1x8192x128 .f32) (r : Fin 1024) (m : Fin 8192) : EReal :=
  if Cert.Spec.thr < ∑ e : Fin 128, q (ix3 (0 : Fin 1) r e) * x1 (ix3 (0 : Fin 1) m e) then 1 else 0

/-- Entry (r, j) of trip `k`'s 0/1 matrix is the 0/1 entry joining query row `r` to row 512·k + j of the batch. -/
theorem k1_pay3_ld (q : Vec Ideal S1x1024x128 .f32) (x1 : Vec Ideal S1x8192x128 .f32) (k : Fin k1_t1_loop.trips)
    (r : Fin 1024) (j : Fin 512) :
    k1_pay3 (F := Ideal) q (View.ld x1 (rT k)) (ix2 r j) = edge q x1 r (tileRow k j) := by
  rw [k1_pay3_apply]
  unfold edge
  have hs : ∑ e : Fin 128, q (ix3 (0 : Fin 1) r e) * View.ld x1 (rT k) (ix3 (0 : Fin 1) j e)
      = ∑ e : Fin 128, q (ix3 (0 : Fin 1) r e) * x1 (ix3 (0 : Fin 1) (tileRow k j) e) :=
    Finset.sum_congr rfl fun e _ => congrArg (q (ix3 (0 : Fin 1) r e) * ·) (ld_rT_apply x1 k j e)
  rw [hs]

/-! ## Sixteen tile sums are one sum over the batch

For a function `f` of a row of the batch, the sum of `f` over the 512 rows of tile `k`, summed over the sixteen tiles,
is the sum of `f` over all 8192 rows: a row `m` is row `m % 512` of tile `m / 512`, and this pairing of (tile, row in
the tile) with the row of the batch is a bijection. Only re-association and re-ordering of a finite sum are used, so
this holds on the extended reals with no finiteness assumption. -/

/-- The sum of `f` over the rows of tile `k` (zero for a `k` that is not a trip). -/
def tileSum (f : Fin 8192 → EReal) (k : ℕ) : EReal :=
  if h : k < k1_t1_loop.trips then ∑ j : Fin 512, f (tileRow ⟨k, h⟩ j) else 0

/-- The tile sums of all the trips add up to the sum over the whole batch. -/
theorem sum_tileSum (f : Fin 8192 → EReal) :
    ∑ i ∈ Finset.range k1_t1_loop.trips, tileSum f i = ∑ m : Fin 8192, f m := by
  rw [Finset.sum_range]
  have h1 : ∀ i : Fin k1_t1_loop.trips, tileSum f i.val = ∑ j : Fin 512, f (tileRow i j) := fun i => by
    unfold tileSum; rw [dif_pos i.isLt]
  rw [Finset.sum_congr rfl fun i _ => h1 i]
  -- the sum over the batch, re-indexed by the pairs (tile, row in the tile), is the iterated sum
  rw [← Equiv.sum_comp (finProdFinEquiv : Fin 16 × Fin 512 ≃ Fin 8192) f, Fintype.sum_prod_type]
  refine Fintype.sum_equiv (finCongr trips_eq_sixteen) _ _ fun i => Finset.sum_congr rfl fun j _ => congrArg f (Fin.ext ?_)
  show 512 * i.val + j.val = j.val + 512 * i.val
  omega

/-! ## The carried pair after `k` trips

By induction on `k`: row `r` of the first component is the sum over the first `k` tiles of the tile sums of the 0/1
entries of query row `r`, and entry (r, d) of the second is the sum over those tiles of the tile sums of the 0/1 entry
times feature `d` of the batch of `x`. Zero trips give the two zero constants; one more trip adds one more tile sum. -/

/-- The recursion at a successor that is a trip. -/
theorem foldT_succ (q : Vec Ideal S1x1024x128 .f32) (x1 x2 : Vec Ideal S1x8192x128 .f32) (k : ℕ) (h : k < k1_t1_loop.trips) :
    foldT (F := Ideal) q x1 x2 (k + 1)
      = (k1_pay4 q (foldT q x1 x2 k).1 (View.ld x1 (rT ⟨k, h⟩)),
         k1_pay5 q (foldT q x1 x2 k).2 (View.ld x1 (rT ⟨k, h⟩)) (View.ld x2 (rT ⟨k, h⟩))) := by
  rw [foldT, dif_pos h]

theorem foldT_apply (q : Vec Ideal S1x1024x128 .f32) (x1 x2 : Vec Ideal S1x8192x128 .f32) (r : Fin 1024) (d : Fin 128) :
    ∀ k : ℕ, k ≤ k1_t1_loop.trips →
      (foldT (F := Ideal) q x1 x2 k).1 (ix2 r (0 : Fin 1)) = ∑ i ∈ Finset.range k, tileSum (fun m => edge q x1 r m) i
      ∧ (foldT (F := Ideal) q x1 x2 k).2 (ix2 r d)
          = ∑ i ∈ Finset.range k, tileSum (fun m => edge q x1 r m * x2 (ix3 (0 : Fin 1) m d)) i
  | 0, _ => by
    rw [Finset.sum_range_zero, Finset.sum_range_zero]
    show k1_pay1 (F := Ideal) (ix2 r (0 : Fin 1)) = 0 ∧ k1_pay2 (F := Ideal) (ix2 r d) = 0
    exact ⟨k1_pay1_apply _, k1_pay2_apply _⟩
  | k + 1, hk => by
    have h : k < k1_t1_loop.trips := hk
    obtain ⟨ih1, ih2⟩ := foldT_apply q x1 x2 r d k (Nat.le_of_lt h)
    rw [foldT_succ q x1 x2 k h, Finset.sum_range_succ, Finset.sum_range_succ]
    constructor
    · -- the row sums: what was carried, plus tile `k`'s sum of the 0/1 entries
      show k1_pay4 (F := Ideal) q (foldT q x1 x2 k).1 (View.ld x1 (rT ⟨k, h⟩)) (ix2 r (0 : Fin 1)) = _
      rw [k1_pay4_apply, ih1]
      unfold tileSum
      rw [dif_pos h]
      exact congrArg (_ + ·) (Finset.sum_congr rfl fun j _ => k1_pay3_ld q x1 ⟨k, h⟩ r j)
    · -- the product: what was carried, plus tile `k`'s sum of the 0/1 entries times the rows of `x`
      show k1_pay5 (F := Ideal) q (foldT q x1 x2 k).2 (View.ld x1 (rT ⟨k, h⟩)) (View.ld x2 (rT ⟨k, h⟩)) (ix2 r d) = _
      rw [k1_pay5_apply, ih2]
      unfold tileSum
      rw [dif_pos h]
      refine congrArg (_ + ·) (Finset.sum_congr rfl fun j _ => ?_)
      rw [k1_pay3_ld, ld_rT_apply]

/-! ## The output block from the three input blocks

The body's one store covers its whole output buffer, so the buffer holds the stored value; the query tile is loaded
through the whole-buffer rectangle, so it is the first input buffer's contents. With the carried pair after all
sixteen trips and the tile sums joined into sums over the batch, entry (r, d) of the output block is the sum over the
8192 rows `m` of the batch of (0/1 entry joining `r` to `m`) · x[m, d], divided by the larger of the sum over `m` of
those 0/1 entries and one. -/

theorem offsets_zero3 : (![0, 0, 0] : Fin 3 → Nat) = fun _ => 0 := funext fun a => by fin_cases a <;> rfl

theorem out1_3_apply (c : Dev nD) (i : grid1.Coords)
    (arg2 : Memref sig .tc .vmem S1x1024x128 .f32) (harg2 : arg2.IsWhole) (arg3 : Memref sig .tc .vmem S1x8192x128 .f32) (harg3 : arg3.IsWhole)
    (arg4 : Memref sig .tc .vmem S1x8192x128 .f32) (harg4 : arg4.IsWhole) (arg5 : Memref sig .tc .vmem S1x1024x128 .f32) (harg5 : arg5.IsWhole)
    (x0 : Vec Ideal S1x1024x128 .f32) (x1 x2 : Vec Ideal S1x8192x128 .f32) (r : Fin 1024) (d : Fin 128) :
    out1_3 (F := Ideal) c i arg2 harg2 arg3 harg3 arg4 harg4 arg5 harg5 x0 x1 x2 (ix3 (0 : Fin 1) r d)
      = Ideal.div (∑ m : Fin 8192, edge x0 x1 r m * x2 (ix3 (0 : Fin 1) m d))
          (max (∑ m : Fin 8192, edge x0 x1 r m) Cert.Spec.one) := by
  unfold out1_3
  rw [View.canon_unit_zero offsets_zero3, k1_pay6_apply, carried1_eq, View.ld_unit_zero (S := S1x1024x128) offsets_zero3]
  obtain ⟨h1, h2⟩ := foldT_apply x0 x1 x2 r d k1_t1_loop.trips (le_refl _)
  rw [h1, h2, sum_tileSum, sum_tileSum]

/-! ## The input blocks, read off the arrays

A block's coordinate on an axis is the block index times the block's extent plus the coordinate inside the block.
At point `t` the query window's block index is (t / 8, t % 8, 0) with extents (1, 1024, 128), and the two full-batch
windows' block index is (t / 8, 0, 0) with extents (1, 8192, 128). So the query block's row `r` is row
1024·(t % 8) + r of batch t / 8 of the normalised rows, and the full-batch blocks' row `m` is row `m` of batch t / 8 of
the normalised rows and of `x`. -/

/-- The three input windows' block indices at every point of the grid. -/
theorem index_maps1 : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0 :=
  (by decide +kernel : ∀ t : Fin grid1.N, _)

/-- The query block: row `r` of the block is row 1024·(t % 8) + r of batch t / 8 of the normalised rows. -/
theorem iblk1_0_apply (c : Dev nD) (t : Fin cfg1.N) (r : Fin 1024) (e : Fin 128) :
    iblk1 (F := Ideal) V c 0 t (ix3 (0 : Fin 1) r e) = V c main_v0 (ix3 (batch1 t) (row1 t r) e) := by
  obtain ⟨e0, e1, e2, -⟩ := index_maps1 t
  show V c main_v0 (((cfg1.win 0).blk t).view.emb (ix3 (0 : Fin 1) r e)) = V c main_v0 (ix3 (batch1 t) (row1 t r) e)
  refine congrArg (V c main_v0) (funext fun a => Fin.ext ?_)
  match a with
  | ⟨0, _⟩ => show win1_0.index t (0 : Fin 3) * 1 + 1 * 0 = t.val / 8; omega
  | ⟨1, _⟩ => show win1_0.index t (1 : Fin 3) * 1024 + 1 * r.val = 1024 * (t.val % 8) + r.val; omega
  | ⟨2, _⟩ => show win1_0.index t (2 : Fin 3) * 128 + 1 * e.val = e.val; omega

/-- The key block: the whole of batch t / 8 of the normalised rows. -/
theorem iblk1_1_apply (c : Dev nD) (t : Fin cfg1.N) (m : Fin 8192) (e : Fin 128) :
    iblk1 (F := Ideal) V c 1 t (ix3 (0 : Fin 1) m e) = V c main_v0 (ix3 (batch1 t) m e) := by
  obtain ⟨-, -, -, e0, e1, e2, -⟩ := index_maps1 t
  show V c main_v0 (((cfg1.win 1).blk t).view.emb (ix3 (0 : Fin 1) m e)) = V c main_v0 (ix3 (batch1 t) m e)
  refine congrArg (V c main_v0) (funext fun a => Fin.ext ?_)
  match a with
  | ⟨0, _⟩ => show win1_1.index t (0 : Fin 3) * 1 + 1 * 0 = t.val / 8; omega
  | ⟨1, _⟩ => show win1_1.index t (1 : Fin 3) * 8192 + 1 * m.val = m.val; omega
  | ⟨2, _⟩ => show win1_1.index t (2 : Fin 3) * 128 + 1 * e.val = e.val; omega

/-- The block of `x`: the whole of batch t / 8 of `x`. -/
theorem iblk1_2_apply (c : Dev nD) (t : Fin cfg1.N) (m : Fin 8192) (e : Fin 128) :
    iblk1 (F := Ideal) V c 2 t (ix3 (0 : Fin 1) m e) = V c main_arg0 (ix3 (batch1 t) m e) := by
  obtain ⟨-, -, -, -, -, -, e0, e1, e2⟩ := index_maps1 t
  show V c main_arg0 (((cfg1.win 2).blk t).view.emb (ix3 (0 : Fin 1) m e)) = V c main_arg0 (ix3 (batch1 t) m e)
  refine congrArg (V c main_arg0) (funext fun a => Fin.ext ?_)
  match a with
  | ⟨0, _⟩ => show win1_2.index t (0 : Fin 3) * 1 + 1 * 0 = t.val / 8; omega
  | ⟨1, _⟩ => show win1_2.index t (1 : Fin 3) * 8192 + 1 * m.val = m.val; omega
  | ⟨2, _⟩ => show win1_2.index t (2 : Fin 3) * 128 + 1 * e.val = e.val; omega

/-! ## Meeting the specification -/

/-- When the query tile holds row `n` of batch `b` of `p` at its row `r`, and the two full-batch buffers hold batch `b` of
    `p` and of `x`, the body's arrangement at (r, d) is the aggregation at (b, n, d): the 0/1 entry joining `r` to `m` is
    then the adjacency of rows `n` and `m` of batch `b`, the sum of the 0/1 entries is the row's count of neighbours, and
    the two sides are the same quotient term by term. -/
theorem agg_of_blocks (p x : Cert.Spec.SX.Idx → EReal) (b : Fin 4) (n : Fin 8192)
    (x0 : Vec Ideal S1x1024x128 .f32) (x1 x2 : Vec Ideal S1x8192x128 .f32) (r : Fin 1024) (d : Fin 128)
    (h0 : ∀ e : Fin 128, x0 (ix3 (0 : Fin 1) r e) = p (ix3 b n e))
    (h1 : ∀ (m : Fin 8192) (e : Fin 128), x1 (ix3 (0 : Fin 1) m e) = p (ix3 b m e))
    (h2 : ∀ m : Fin 8192, x2 (ix3 (0 : Fin 1) m d) = x (ix3 b m d)) :
    Ideal.div (∑ m : Fin 8192, edge x0 x1 r m * x2 (ix3 (0 : Fin 1) m d))
        (max (∑ m : Fin 8192, edge x0 x1 r m) Cert.Spec.one)
      = Cert.Spec.aggK p x (ix3 b n d) := by
  rw [Cert.Spec.aggK_ix3]
  unfold Cert.Spec.deg Cert.Spec.adj Cert.Spec.sim edge
  simp only [h0, h1, h2]

/-- The output block at point `t`, at row `r` and feature `d`, is the kernel's arrangement of the aggregation at
    that batch, that row of the batch and that feature. -/
theorem oblk1_apply (c : Dev nD) (t : Fin cfg1.N) (r : Fin 1024) (d : Fin 128) :
    oblk1 (F := Ideal) V c t (ix3 (0 : Fin 1) r d)
      = Cert.Spec.aggK (V c main_v0) (V c main_arg0) (ix3 (batch1 t) (row1 t r) d) := by
  unfold oblk1
  -- the output block as the quotient of the two sums over the batch, from the three input blocks at `t`
  refine (out1_3_apply c (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (iblk1 V c 0 t) (iblk1 V c 1 t) (iblk1 V c 2 t) r d).trans ?_
  -- and the three blocks are the query tile and the two whole batches, read off the arrays
  exact agg_of_blocks (V c main_v0) (V c main_arg0) (batch1 t) (row1 t r)
    (iblk1 V c 0 t) (iblk1 V c 1 t) (iblk1 V c 2 t) r d
    (iblk1_0_apply V c t r) (iblk1_1_apply V c t) (fun m => iblk1_2_apply V c t m d)

end Cert.KernelIdeal.Hand

end
-- ==== Proof.AggValue.lean ====
/-
  What the second kernel region leaves in its result array, at the extended reals: entry (b, n, d) is the sum over
  all 8192 rows `m` of batch `b` of `adj[n, m] · x[b, m, d]`, divided by the larger of the row sum of `adj` and one,
  where `adj[n, m]` is 1 when the inner product of rows `n` and `m` of the first region's result exceeds the
  threshold and 0 otherwise. Grid point (b, q) writes rows 1024·q … 1024·q + 1023 of batch `b`; the thirty-two
  blocks tile the array. Within a point the sixteen trips each add the contribution of 512 key rows to the carried
  pair, starting from zero: sixteen sums over 512 consecutive rows are one sum over 8192.
-/
import proofs.«117135_j34677565948786_1_alg».proof.Proof.AggBody
import proofs.«117135_j34677565948786_1_alg».proof.Proof.Spec
import proofs.«117135_j34677565948786_1_alg».proof.Proof.LibDot
import Idealize.ShloMosaic.Lib.Pipeline.Value
import Idealize.ShloMosaic.Lib.ValueLayout

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The result window's index map over the thirty-two points: point `t` is at block (t / 8, t % 8, 0), so its block
    is rows 1024·(t % 8) … 1024·(t % 8) + 1023, all features, of batch t / 8. -/
theorem idx_facts1 : ∀ t : Fin cfg1.N, win1_3.index t (0 : Fin 3) = t.val / 8 ∧ win1_3.index t (1 : Fin 3) = t.val % 8
    ∧ win1_3.index t (2 : Fin 3) = 0 :=
  (by decide +kernel : ∀ t : Fin grid1.N, _)

/-- What point `t` writes back is block `t` of the aggregation array: entry (0, r, d) of the block sits at array index
    (t / 8, 1024·(t % 8) + r, d), and the body's stored value there is the aggregation at that batch, row and feature. -/
theorem flushed1_eq (c : Dev nD) (t : Fin cfg1.N) :
    (dat1 (F := Ideal) V c).flushed 3 t
      = ((cfg1.win 3).blk t).view.read (Elt Ideal) (Cert.Spec.aggK (V c main_v0) (V c main_arg0)) := by
  show (cfg1.win 3).cut (grid1.coords t) ((dat1 V c).after 3 t) = _
  rw [after1_3]
  obtain ⟨e0, e1, e2⟩ := idx_facts1 t
  refine funext fun (y : S1x1024x128.Idx) => ?_
  show oblk1 (F := Ideal) V c t y
    = Cert.Spec.aggK (V c main_v0) (V c main_arg0) (((cfg1.win 3).blk t).view.emb y)
  obtain ⟨r, hr⟩ : ∃ r : Fin 1024, r = y 1 := ⟨y 1, rfl⟩
  obtain ⟨d, hd⟩ : ∃ d : Fin 128, d = y 2 := ⟨y 2, rfl⟩
  have h0 : (y 0).val < 1 := (y 0).isLt
  -- the block's leading axis has one entry, so a block index is (0, r, d)
  have hy : y = ix3 (0 : Fin 1) r d := by
    funext a
    match a with
    | ⟨0, _⟩ => exact Fin.ext (by show (y 0).val = 0; omega)
    | ⟨1, _⟩ => exact hr.symm
    | ⟨2, _⟩ => exact hd.symm
  -- and it sits in the array at (block index × block extent + offset) on each axis
  have hemb : ((cfg1.win 3).blk t).view.emb y = ix3 (batch1 t) (row1 t r) d := by
    funext a; apply Fin.ext
    match a with
    | ⟨0, _⟩ => show win1_3.index t (0 : Fin 3) * 1 + 1 * (y 0).val = t.val / 8; omega
    | ⟨1, _⟩ => show win1_3.index t (1 : Fin 3) * 1024 + 1 * (y 1).val = 1024 * (t.val % 8) + r.val; rw [hr]; omega
    | ⟨2, _⟩ => show win1_3.index t (2 : Fin 3) * 128 + 1 * (y 2).val = d.val; rw [hd]; omega
  rw [hemb, hy]
  exact oblk1_apply V c t r d

/-- An index of the result array is in point `t`'s block iff each coordinate is in the block's range on its axis. -/
theorem mem_blk1 (t : Fin cfg1.N) (i : S4x8192x128.Idx) :
    i ∈ ((cfg1.win 3).blk t).view.set ↔ ∀ a : Fin 3, win1_3.index t a * S1x1024x128.size a ≤ (i a).val
      ∧ (i a).val < win1_3.index t a * S1x1024x128.size a + S1x1024x128.size a := by
  show i ∈ ((View.whole main_v1).slice (win1_3.rect t)).set ↔ _
  rw [View.set_slice_whole, Rect.mem_set_unit]
  exact Iff.rfl

/-- The thirty-two blocks cover the result array: index (b, n, d) is in the block of point 8·b + n / 1024, batch `b`
    and the tile of 1024 rows that holds row `n`, which writes it back. -/
theorem cover1 (i : S4x8192x128.Idx) :
    ∃ t : Fin cfg1.N, (cfg1.win 3).flush t = true ∧ i ∈ ((cfg1.win 3).blk t).view.set := by
  have hi0 : (i 0).val < 4 := (i 0).isLt
  have hi1 : (i 1).val < 8192 := (i 1).isLt
  have hi2 : (i 2).val < 128 := (i 2).isLt
  obtain ⟨t, ht⟩ : ∃ t : Fin cfg1.N, t.val = 8 * (i 0).val + (i 1).val / 1024 :=
    ⟨⟨8 * (i 0).val + (i 1).val / 1024, by rw [show cfg1.N = 32 from N_1]; omega⟩, rfl⟩
  refine ⟨t, flush1_3 t, ?_⟩
  rw [mem_blk1]
  obtain ⟨e0, e1, e2⟩ := idx_facts1 t
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 128 ≤ (i 2).val ∧ (i 2).val < win1_3.index t (2 : Fin 3) * 128 + 128; omega

/-- The second region's result array after its thirty-two points is the kernel's arrangement of the aggregation,
    of the array of rows it read through its first two windows and the array `x` it read through its third. -/
theorem arr1_eq (c : Dev nD) :
    (dat1 (F := Ideal) V c).arrAt 3 cfg1.N = Cert.Spec.aggK (V c main_v0) (V c main_arg0) := by
  -- every point writes back a block of the one function, and the blocks cover the array: the array is that function
  exact (dat1 (F := Ideal) V c).arrAt_eq_of_cover 3 (Cert.Spec.aggK (V c main_v0) (V c main_arg0))
    (fun t _ => flushed1_eq V c t) cover1

end Cert.KernelIdeal.Hand

end
-- ==== Proof.RefRun.lean ====
/-
  The reference computes, batch by batch: the rows of `x · Wᵀ + b` divided by the larger of their Euclidean norm and
  a small positive constant; the matrix of inner products of those unit rows; its entries compared with a threshold,
  giving a 0/1 matrix; each row of that matrix divided by the larger of its row sum and one; and the product of the
  result with `x`. Its run ends with the result array at that composed term of the three argument arrays, and each
  operation of the term is read at an index from its operands at indices.
-/
import proofs.«117135_j34677565948786_1_alg».proof.Proof.Gen.ReferenceIdeal.Run
import proofs.«117135_j34677565948786_1_alg».proof.Proof.Gen.ReferenceIdeal.Read
-- ==== Proof.RefValue.lean ====
/-
  The reference's result, at the extended reals, is the reference's arrangement of the aggregation of the unit rows
  of its three arguments: its first product, bias, norm, clip and quotient make the unit rows (the clip takes the
  larger of the constant and the norm, the same number as the larger of the norm and the constant); its second
  product, comparison and conversion make the 0/1 matrix; its row sum and second clip the divisor; and its last
  product is the sum over the rows `m` of (entry over divisor) times `x[b, m, d]`.
-/
import proofs.«117135_j34677565948786_1_alg».proof.Proof.RefRun
import proofs.«117135_j34677565948786_1_alg».proof.Proof.Spec

set_option maxRecDepth 16384

noncomputable section

open scoped BigOperators

namespace Cert.ReferenceIdeal.RefValue

open Idealize.ShloMosaic Idealize.ShloMosaic.TcCoe Idealize.ShloMosaic.ValueIdx
open Cert.ReferenceIdeal Cert.ReferenceIdeal.Gen Cert.ReferenceIdeal.Read

section Stages

variable (x0 : (⟨S4x8192x128, .f32⟩ : BufTy).Contents (Elt Ideal)) (x1 : (⟨S128x128, .f32⟩ : BufTy).Contents (Elt Ideal))
  (x2 : (⟨S128, .f32⟩ : BufTy).Contents (Elt Ideal))

/-! ### The linear map: `x · Wᵀ + bias` -/

/-- Entry `(b, n, o)` of the first product reads `x` along row `(b, n)`: its `k`-th left index is `(b, n, k)`. -/
theorem lidx_v0_ix3 (b : Fin 4) (n : Fin 8192) (o k : Fin 128) : lidx_main_v0 (ix3 b n o) k = ix3 b n k :=
  funext fun a => by match a with | ⟨0, _⟩ => rfl | ⟨1, _⟩ => rfl | ⟨2, _⟩ => rfl

/-- … and `W` along its row `o`: its `k`-th right index is `(o, k)`. -/
theorem ridx_v0_ix3 (b : Fin 4) (n : Fin 8192) (o k : Fin 128) : ridx_main_v0 (ix3 b n o) k = ix2 o k :=
  funext fun a => by match a with | ⟨0, _⟩ => rfl | ⟨1, _⟩ => rfl

/-- The bias, broadcast first to `[1, 1, 128]` and then to `[4, 8192, 128]`, is read at `(b, n, o)` from its entry `o`. -/
theorem idx_v1_v2_ix3 (b : Fin 4) (n : Fin 8192) (o : Fin 128) : idx_main_v1 (idx_main_v2 (ix3 b n o)) = ix1 o :=
  funext fun a => by match a with | ⟨0, _⟩ => rfl

/-- The product plus the broadcast bias, at `(b, n, o)`, is `∑ d, x[b, n, d] · W[o, d] + bias[o]`: the specification's
    `lin`, term by term. -/
theorem v3_ix3 (b : Fin 4) (n : Fin 8192) (o : Fin 128) :
    val_main_v3 (F := Ideal) x0 x1 x2 (ix3 b n o) = Cert.Spec.lin x0 x1 x2 b n o := by
  rw [val_main_v3_apply, val_main_v0_apply, val_main_v2_apply, val_main_v1_apply, Ideal.addf_def, idx_v1_v2_ix3]
  unfold Cert.Spec.lin
  refine congrArg (· + x2 (ix1 o)) (Finset.sum_congr rfl fun k _ => ?_)
  rw [lidx_v0_ix3, ridx_v0_ix3]

/-! ### The clipped norm of a row, and the unit rows -/

/-- The sum of squares over the last axis, kept as an axis of size one, reads at `(b, n, 0)` the squares at
    `(b, n, k)` for `k` over the 128 features. -/
theorem idx_norm_ix3 (b : Fin 4) (n : Fin 8192) (z : Fin 1) (k : Fin 128) :
    idx_main_call0_v1 (idx_main_call0_v2 (ix3 b n z)) k = ix3 b n k :=
  funext fun a => by match a with | ⟨0, _⟩ => rfl | ⟨1, _⟩ => rfl | ⟨2, _⟩ => rfl

/-- The clip of the norm at `(b, n, ·)`: the sum starts from the zero word, which denotes 0 and drops out; the square
    root of `∑ o, lin o · lin o` is the row's Euclidean norm; and the program takes the larger of the small constant and
    the norm where the specification takes the larger of the norm and the constant — the same number, since taking the
    larger of two is symmetric. -/
theorem v5_ix3 (b : Fin 4) (n : Fin 8192) (z : Fin 1) :
    val_main_v5 (F := Ideal) x0 x1 x2 (ix3 b n z) = Cert.Spec.rowNorm x0 x1 x2 b n := by
  rw [val_main_v5_apply, val_main_call1_v1_apply, val_main_call1_v0_apply, val_main_cst_apply, val_main_v4_apply,
    val_main_call0_v2_apply, val_main_call0_v1_apply, val_main_call0_cst_apply, Ideal.maximumf_def,
    Ideal.hostUnary_sqrt_def, Ideal.ofBits_def, Ideal.ofBits_def, Ideal.ofBits_zero_f32, zero_add, max_comm]
  unfold Cert.Spec.rowNorm
  refine congrArg (fun s => max (Ideal.sqrt s) Cert.Spec.eps) (Finset.sum_congr rfl fun k _ => ?_)
  rw [idx_norm_ix3, val_main_call0_v0_apply, Ideal.mulf_def, v3_ix3]

/-- The clipped norm, broadcast back along the features, is read at `(b, n, o)` from `(b, n, 0)`. -/
theorem idx_v6_ix3 (b : Fin 4) (n : Fin 8192) (o : Fin 128) : idx_main_v6 (ix3 b n o) = ix3 b n (0 : Fin 1) :=
  funext fun a => by match a with | ⟨0, _⟩ => rfl | ⟨1, _⟩ => rfl | ⟨2, _⟩ => rfl

/-- The quotient at `(b, n, o)` is `lin b n o` over the clipped norm of row `(b, n)`: the specification's `unitRow`. -/
theorem v7_ix3 (b : Fin 4) (n : Fin 8192) (o : Fin 128) :
    val_main_v7 (F := Ideal) x0 x1 x2 (ix3 b n o) = Cert.Spec.unitRow x0 x1 x2 b n o := by
  rw [val_main_v7_apply, val_main_v6_apply, Ideal.hostDivf_def, idx_v6_ix3, v5_ix3, v3_ix3]
  rfl

/-- As an array the quotient is the array of unit rows: every index is the triple of its coordinates, and the two
    agree at each triple. The later stages read this array at several indices, so it is the equation between the two
    FUNCTIONS that they use. -/
theorem v7_eq : val_main_v7 (F := Ideal) x0 x1 x2 = Cert.Spec.unitRows x0 x1 x2 := by
  funext i
  rw [eq_ix3 i]
  exact v7_ix3 x0 x1 x2 (i 0) (i 1) (i 2)

/-! ### The inner products of the unit rows, and the 0/1 matrix -/

/-- Entry `(b, n, m)` of the second product reads row `n` of batch `b` on the left … -/
theorem lidx_v8_ix3 (b : Fin 4) (n m : Fin 8192) (k : Fin 128) : lidx_main_v8 (ix3 b n m) k = ix3 b n k :=
  funext fun a => by match a with | ⟨0, _⟩ => rfl | ⟨1, _⟩ => rfl | ⟨2, _⟩ => rfl

/-- … and row `m` of the same batch on the right. -/
theorem ridx_v8_ix3 (b : Fin 4) (n m : Fin 8192) (k : Fin 128) : ridx_main_v8 (ix3 b n m) k = ix3 b m k :=
  funext fun a => by match a with | ⟨0, _⟩ => rfl | ⟨1, _⟩ => rfl | ⟨2, _⟩ => rfl

/-- So that entry is `∑ e, p[b, n, e] · p[b, m, e]` for `p` the unit rows: the specification's `sim`. -/
theorem v8_ix3 (b : Fin 4) (n m : Fin 8192) :
    val_main_v8 (F := Ideal) x0 x1 x2 (ix3 b n m) = Cert.Spec.sim (Cert.Spec.unitRows x0 x1 x2) b n m := by
  rw [val_main_v8_apply, v7_eq]
  unfold Cert.Spec.sim
  refine Finset.sum_congr rfl fun k _ => ?_
  rw [lidx_v8_ix3, ridx_v8_ix3]

/-- On the extended reals "greater than" is the order's comparison, giving the bit 1 when `y < x` and the bit 0
    otherwise; read as an unsigned integer and then as a number, the bit 1 is the number 1 and the bit 0 the number 0.
    So the converted comparison is the indicator of `y < x`. -/
theorem uitofp_cmp_ogt (x y : EReal) :
    (FloatOps.uitofp (F := Ideal) .f32 (FloatOps.cmpf (F := Ideal) (φ := .f32) .ogt x y) : EReal) = if y < x then 1 else 0 := by
  show (((BitVec.ofBool (decide (y < x))).toNat : ℝ) : EReal) = _
  by_cases h : y < x <;> simp [h]

/-- The converted comparison of the inner products against the broadcast threshold, at `(b, n, m)`, is 1 where the
    inner product of rows `n` and `m` exceeds the threshold and 0 elsewhere: the specification's `adj`. -/
theorem v11_ix3 (b : Fin 4) (n m : Fin 8192) :
    val_main_v11 (F := Ideal) x0 x1 x2 (ix3 b n m) = Cert.Spec.adj (Cert.Spec.unitRows x0 x1 x2) b n m := by
  rw [val_main_v11_apply, val_main_v10_apply, val_main_v9_apply, val_main_cst_0_apply, v8_ix3, Ideal.ofBits_def]
  exact uitofp_cmp_ogt _ _

/-! ### The divisor: the clipped row sum of the 0/1 matrix -/

/-- The row sum of the 0/1 matrix, kept as an axis of size one, reads at `(b, n, 0)` the entries `(b, n, k)` for `k`
    over the 8192 rows. -/
theorem idx_deg_ix3 (b : Fin 4) (n : Fin 8192) (z : Fin 1) (k : Fin 8192) :
    idx_main_v12 (idx_main_v13 (ix3 b n z)) k = ix3 b n k :=
  funext fun a => by match a with | ⟨0, _⟩ => rfl | ⟨1, _⟩ => rfl | ⟨2, _⟩ => rfl

/-- The second clip at `(b, n, ·)`: again the sum starts from the zero word, which drops out, and the program's
    "larger of one and the row sum" is the specification's "larger of the row sum and one": `deg`. -/
theorem v14_ix3 (b : Fin 4) (n : Fin 8192) (z : Fin 1) :
    val_main_v14 (F := Ideal) x0 x1 x2 (ix3 b n z) = Cert.Spec.deg (Cert.Spec.unitRows x0 x1 x2) b n := by
  rw [val_main_v14_apply, val_main_call2_v1_apply, val_main_call2_v0_apply, val_main_cst_2_apply, val_main_v13_apply,
    val_main_v12_apply, val_main_cst_1_apply, Ideal.maximumf_def, Ideal.ofBits_def, Ideal.ofBits_def,
    Ideal.ofBits_zero_f32, zero_add, max_comm]
  unfold Cert.Spec.deg
  refine congrArg (fun s => max s Cert.Spec.one) (Finset.sum_congr rfl fun k _ => ?_)
  rw [idx_deg_ix3, v11_ix3]

/-- The divisor, broadcast along the second row axis, is read at `(b, n, m)` from `(b, n, 0)`. -/
theorem idx_v15_ix3 (b : Fin 4) (n m : Fin 8192) : idx_main_v15 (ix3 b n m) = ix3 b n (0 : Fin 1) :=
  funext fun a => by match a with | ⟨0, _⟩ => rfl | ⟨1, _⟩ => rfl | ⟨2, _⟩ => rfl

/-- The normalised matrix at `(b, n, m)` is the 0/1 entry over the divisor of row `(b, n)`. -/
theorem v16_ix3 (b : Fin 4) (n m : Fin 8192) :
    val_main_v16 (F := Ideal) x0 x1 x2 (ix3 b n m)
      = Ideal.div (Cert.Spec.adj (Cert.Spec.unitRows x0 x1 x2) b n m) (Cert.Spec.deg (Cert.Spec.unitRows x0 x1 x2) b n) := by
  rw [val_main_v16_apply, val_main_v15_apply, Ideal.hostDivf_def, idx_v15_ix3, v14_ix3, v11_ix3]

/-! ### The last product -/

/-- Entry `(b, n, d)` of the last product reads row `(b, n)` of the normalised matrix on the left … -/
theorem lidx_v17_ix3 (b : Fin 4) (n : Fin 8192) (d : Fin 128) (k : Fin 8192) : lidx_main_v17 (ix3 b n d) k = ix3 b n k :=
  funext fun a => by match a with | ⟨0, _⟩ => rfl | ⟨1, _⟩ => rfl | ⟨2, _⟩ => rfl

/-- … and column `d` of batch `b` of `x` on the right. -/
theorem ridx_v17_ix3 (b : Fin 4) (n : Fin 8192) (d : Fin 128) (k : Fin 8192) : ridx_main_v17 (ix3 b n d) k = ix3 b k d :=
  funext fun a => by match a with | ⟨0, _⟩ => rfl | ⟨1, _⟩ => rfl | ⟨2, _⟩ => rfl

/-- So that entry is `∑ m, (adj / deg) · x[b, m, d]`, the division inside the sum: the reference's arrangement at
    `(b, n, d)`, term by term. -/
theorem v17_ix3 (b : Fin 4) (n : Fin 8192) (d : Fin 128) :
    val_main_v17 (F := Ideal) x0 x1 x2 (ix3 b n d) = Cert.Spec.aggR (Cert.Spec.unitRows x0 x1 x2) x0 (ix3 b n d) := by
  rw [val_main_v17_apply, Cert.Spec.aggR_ix3]
  refine Finset.sum_congr rfl fun k _ => ?_
  rw [lidx_v17_ix3, ridx_v17_ix3, v16_ix3]

end Stages

/-- The reference's last stage, as a function of the three argument arrays, is the reference's arrangement: every
    index is the triple of its coordinates, and the two agree at each triple. -/
theorem ref_eq (x0 : (⟨S4x8192x128, .f32⟩ : BufTy).Contents (Elt Ideal)) (x1 : (⟨S128x128, .f32⟩ : BufTy).Contents (Elt Ideal))
    (x2 : (⟨S128, .f32⟩ : BufTy).Contents (Elt Ideal)) :
    val_main_v17 (F := Ideal) x0 x1 x2 = Cert.Spec.aggR (Cert.Spec.unitRows x0 x1 x2) x0 := by
  funext i
  rw [eq_ix3 i]
  exact v17_ix3 x0 x1 x2 (i 0) (i 1) (i 2)

end Cert.ReferenceIdeal.RefValue

end
-- ==== Proof.Finite.lean ====
/-
  Under the precondition every entry of the first argument array is a real number: the precondition's first
  conjunct says that the absolute value of every entry is below +∞, and an extended real whose absolute value is
  below +∞ is neither infinity.
-/
import proofs.«117135_j34677565948786_1_alg».proof.Defs
import proofs.«117135_j34677565948786_1_alg».proof.Proof.Gen.Pre_finite_inputs
import Idealize.ShloMosaic.Lib.ReduceAll
import Idealize.ShloMosaic.Lib.ValueIdx

set_option maxRecDepth 16384

noncomputable section

open scoped BigOperators

namespace Cert.Proof.Finite

open Idealize.ShloMosaic Idealize.ShloMosaic.TcCoe Idealize.SL.Sem

/-- The single-precision pattern with all exponent bits set and no fraction bits denotes +∞. -/
theorem ofBits_inf_f32 : Ideal.ofBits .f32 0x7F800000#32 = (⊤ : EReal) := by
  simp [Ideal.ofBits, Ideal.ieee]

/-- An extended real whose absolute value (the larger of it and its negation) lies strictly below +∞ is a real
number: at +∞ the value itself is the maximum, at -∞ its negation is, and either way the maximum is +∞. -/
theorem exists_real_of_abs_lt_top (x : EReal) (hx : max x (-x) < ⊤) : ∃ r : ℝ, x = (r : EReal) := by
  induction x using EReal.rec with
  | bot => simp at hx
  | coe r => exact ⟨r, rfl⟩
  | top => simp at hx

/-- The ordered "less than" comparison of two extended reals yields the word 1 exactly when the strict inequality
holds, so a comparison of |x| against the +∞ pattern that came out 1 says |x| < +∞. -/
theorem abs_lt_top_of_cmp_eq_one (x : Ideal .f32)
    (hx : FloatOps.cmpf .olt (FloatOps.hostAbsf x) (Ideal.ofBits .f32 0x7F800000#32) = 1#1) :
    max (x : EReal) (-(x : EReal)) < ⊤ := by
  rw [ofBits_inf_f32] at hx
  change Ideal.cmp .olt (max (x : EReal) (-(x : EReal))) ⊤ = 1#1 at hx
  unfold Ideal.cmp at hx
  by_contra hn
  simp [hn] at hx

/-- Under the precondition, on every core, every entry of `x` is a real number. -/
theorem finite_x [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) := by
  intro i
  -- The precondition at this core, read at the one index of its rank-0 result.
  have h0 := congrFun (h c) ValueIdx.ix0
  dsimp only [Cert.Pre_finite_inputs.fn] at h0
  -- It is a conjunction of three checks, one per argument; keep the first.
  obtain ⟨h1, -⟩ := IntOp.andi_eq_one.1 h0
  obtain ⟨h2, -⟩ := IntOp.andi_eq_one.1 h1
  -- That check is an "and" over all entries of the comparison array, so each entry of the array is 1.
  haveI : Subsingleton Cert.Pre_finite_inputs.S_.Idx := ⟨fun a b => funext fun d => d.elim0⟩
  have h3 := Host.reduce_andi_all _ _ _ _ _ h2 i
  -- Entry i of the comparison array compares |x i| with the scalar +∞ pattern broadcast to every position.
  -- A broadcast scalar reads the same value wherever it is indexed, and the constant array holds the pattern's value.
  change FloatOps.cmpf .olt (FloatOps.hostAbsf (m ((c.tc : Thread Cert.KernelIdeal.nD Cert.KernelIdeal.τ).loc Cert.KernelIdeal.main_arg0) i))
    (Ideal.ofBits .f32 0x7F800000#32) = 1#1 at h3
  exact exists_real_of_abs_lt_top _ (abs_lt_top_of_cmp_eq_one _ h3)

end Cert.Proof.Finite

end
-- ==== Proof.lean ====
/-
  The certificate's claim: the kernel's program as printed and as idealized each run to the end without a fault and
  leave their three argument arrays as launched; so does the reference; the idealization rewrote nothing, so there
  is nothing to say of it; and at the extended reals, from memories that agree on the arguments, the idealized
  kernel and the idealized reference end with the same result array.

  The kernel's program is two kernel regions in a row. The first leaves, in an array of its own, the rows of
  `x · Wᵀ + b` each divided by the larger of its Euclidean norm and a small positive constant. The second reads that
  array (through two windows) and `x`, and leaves in the result array, at (b, n, d), the sum over the rows `m` of the
  batch of `adj[n, m] · x[b, m, d]` divided by the larger of the row sum of `adj` and one, `adj[n, m]` being one where the
  inner product of unit rows `n` and `m` exceeds the threshold and zero elsewhere. The reference computes the same unit
  rows and the same `adj` and divisor, and sums `(adj[n, m] / divisor) · x[b, m, d]` over `m`. Under the precondition every
  entry of `x` is a real number, every term of either sum is then a real number, and division by the positive real
  divisor distributes over the finite sum: the two results are equal entry by entry.
-/
import proofs.«117135_j34677565948786_1_alg».proof.Defs
import proofs.«117135_j34677565948786_1_alg».proof.Proof.Gen.Kernel
import proofs.«117135_j34677565948786_1_alg».proof.Proof.Gen.KernelIdeal
import proofs.«117135_j34677565948786_1_alg».proof.Proof.Gen.ReferenceIdeal
import proofs.«117135_j34677565948786_1_alg».proof.Proof.Gen.Pre_finite_inputs
import proofs.«117135_j34677565948786_1_alg».proof.Proof.Run
import proofs.«117135_j34677565948786_1_alg».proof.Proof.RunIdeal
import proofs.«117135_j34677565948786_1_alg».proof.Proof.ProjValue
import proofs.«117135_j34677565948786_1_alg».proof.Proof.AggValue
import proofs.«117135_j34677565948786_1_alg».proof.Proof.RefValue
import proofs.«117135_j34677565948786_1_alg».proof.Proof.Finite
import proofs.«117135_j34677565948786_1_alg».proof.Proof.Spec
import Idealize.ShloMosaic.Adequacy
import Idealize.ShloMosaic.Init

noncomputable section

namespace Cert.Proof

open Idealize.ShloMosaic Idealize.ShloMosaic.TcCoe Idealize.SL.Sem

/-- The program as printed runs and keeps its arguments: its run over the two regions, read at the word level. -/
theorem frame_k : Cert.frame_Kernel := fun m ρ _ => Cert.Kernel.Hand.frame m ρ

/-- So does the idealized program: the same run, read at the extended reals. -/
theorem frame_ki : Cert.frame_KernelIdeal := fun m ρ _ => Cert.KernelIdeal.Hand.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the extended reals the two programs end with the same result array: the kernel's second region leaves the
    kernel's arrangement of the aggregation of the unit rows its first region left; the reference's last stage is
    the reference's arrangement of the same; and the two arrangements agree because `x` has real entries. -/
theorem algebraic : Cert.algebraic_KernelIdeal_ReferenceIdeal := by
  intro m ρ m' ρ' hpre hagree
  refine ⟨fun c => Cert.Spec.aggK
      (Cert.Spec.unitRows (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg0)), ?_, ?_⟩
  · refine (θ_run Cert.KernelIdeal.defs _ _).mono (fun _ h c => ⟨(h c).1.trans ?_, (h c).2⟩)
      (Cert.KernelIdeal.Hand.run_values (F := Ideal) m ρ)
    rw [Cert.KernelIdeal.Hand.arr1_eq, Cert.KernelIdeal.Hand.V1_main_v0, Cert.KernelIdeal.Hand.arr0_eq,
      Cert.KernelIdeal.Hand.V1_main_arg0]
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v17_eq m' c).trans ((Cert.ReferenceIdeal.RefValue.ref_eq _ _ _).trans ?_)
    rw [(hagree c).1, (hagree c).2.1, (hagree c).2.2]
    exact (Cert.Spec.aggK_eq_aggR _ _ (Cert.Proof.Finite.finite_x m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
